-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x8x32768 : Shape := ⟨4, ![4, 4, 8, 32768]⟩
abbrev S4x128x32x32x32 : Shape := ⟨5, ![4, 128, 32, 32, 32]⟩
abbrev S_ : Shape := ⟨0, ![]⟩

class Facts : Prop where
  bcast_S_S4x4x8x32768 : S_.BroadcastsInDim S4x4x8x32768 (![] : Fin 0 → Fin S4x4x8x32768.rank)
  reducesTo_S4x4x8x32768_S_d0_1_2_3 : S4x4x8x32768.ReducesTo [0, 1, 2, 3] S_
  h_S_ : 0 < S_.numel
  bcast_S_S4x128x32x32x32 : S_.BroadcastsInDim S4x128x32x32x32 (![] : Fin 0 → Fin S4x128x32x32x32.rank)
  reducesTo_S4x128x32x32x32_S_d0_1_2_3_4 : S4x128x32x32x32.ReducesTo [0, 1, 2, 3, 4] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x4x8x32768 .f32) (main_arg1 : IVec S4x4x8x32768 32) (main_arg2 : FVec F S4x128x32x32x32 .f32) : IVec S_ 1 :=
  let main_v0 : FVec F S4x4x8x32768 .f32 := Host.absf main_arg0
  let main_cst : FVec F S_ .f32 := constant S_ .f32 0x7F800000#32
  let main_v1 : FVec F S4x4x8x32768 .f32 := broadcastInDim S4x4x8x32768 ![] bcast_S_S4x4x8x32768 main_cst
  let main_v2 : IVec S4x4x8x32768 1 := cmpf .olt main_v0 main_v1
  let main_c : IVec S_ 1 := constantI S_ 1 1#1
  let main_v3 : IVec S_ 1 := (fun x v => Host.reduce IntOp.andi x v reducesTo_S4x4x8x32768_S_d0_1_2_3 h_S_) main_v2 main_c
  let main_v4 : FVec F S4x128x32x32x32 .f32 := Host.absf main_arg2
  let main_cst_0 : FVec F S_ .f32 := constant S_ .f32 0x7F800000#32
  let main_v5 : FVec F S4x128x32x32x32 .f32 := broadcastInDim S4x128x32x32x32 ![] bcast_S_S4x128x32x32x32 main_cst_0
  let main_v6 : IVec S4x128x32x32x32 1 := cmpf .olt main_v4 main_v5
  let main_c_1 : IVec S_ 1 := constantI S_ 1 1#1
  let main_v7 : IVec S_ 1 := (fun x v => Host.reduce IntOp.andi x v reducesTo_S4x128x32x32x32_S_d0_1_2_3_4 h_S_) main_v6 main_c_1
  let main_v8 : IVec S_ 1 := andi main_v3 main_v7
  let main_c_2 : IVec S_ 32 := constantI S_ 32 0#32
  let main_v9 : IVec S4x4x8x32768 32 := broadcastInDim S4x4x8x32768 ![] bcast_S_S4x4x8x32768 main_c_2
  let main_v10 : IVec S4x4x8x32768 1 := cmpi .sge main_arg1 main_v9
  let main_c_3 : IVec S_ 1 := constantI S_ 1 1#1
  let main_v11 : IVec S_ 1 := (fun x v => Host.reduce IntOp.andi x v reducesTo_S4x4x8x32768_S_d0_1_2_3 h_S_) main_v10 main_c_3
  let main_v12 : IVec S_ 1 := andi main_v8 main_v11
  let main_c_4 : IVec S_ 32 := constantI S_ 32 32768#32
  let main_v13 : IVec S4x4x8x32768 32 := broadcastInDim S4x4x8x32768 ![] bcast_S_S4x4x8x32768 main_c_4
  let main_v14 : IVec S4x4x8x32768 1 := cmpi .slt main_arg1 main_v13
  let main_c_5 : IVec S_ 1 := constantI S_ 1 1#1
  let main_v15 : IVec S_ 1 := (fun x v => Host.reduce IntOp.andi x v reducesTo_S4x4x8x32768_S_d0_1_2_3 h_S_) main_v14 main_c_5
  fn_part1 (F := F) main_v12 main_v15
-- ==== Kernel.lean ====
abbrev S4x4x8x32768 : Shape := ⟨4, ![4, 4, 8, 32768]⟩
abbrev S4x128x32x32x32 : Shape := ⟨5, ![4, 128, 32, 32, 32]⟩
abbrev S_ : Shape := ⟨0, ![]⟩
abbrev S16x8x32768 : Shape := ⟨3, ![16, 8, 32768]⟩
abbrev S4x4x32x32768 : Shape := ⟨4, ![4, 4, 32, 32768]⟩
abbrev S16x32x256x128 : Shape := ⟨4, ![16, 32, 256, 128]⟩
abbrev S16x32x128x256 : Shape := ⟨4, ![16, 32, 128, 256]⟩
abbrev S16x4096x256 : Shape := ⟨3, ![16, 4096, 256]⟩
abbrev S16x32x32768 : Shape := ⟨3, ![16, 32, 32768]⟩
abbrev S1x4096x256 : Shape := ⟨3, ![1, 4096, 256]⟩
abbrev S1x8x256 : Shape := ⟨3, ![1, 8, 256]⟩
abbrev S1x32x256 : Shape := ⟨3, ![1, 32, 256]⟩
abbrev S32x256 : Shape := ⟨2, ![32, 256]⟩
abbrev S256x256 : Shape := ⟨2, ![256, 256]⟩
abbrev S128x256 : Shape := ⟨2, ![128, 256]⟩
abbrev S4096x256 : Shape := ⟨2, ![4096, 256]⟩
abbrev S8x256 : Shape := ⟨2, ![8, 256]⟩
abbrev S1x256 : Shape := ⟨2, ![1, 256]⟩
abbrev S256 : Shape := ⟨1, ![256]⟩
abbrev S32x128x256 : Shape := ⟨3, ![32, 128, 256]⟩
abbrev S1x128x256 : Shape := ⟨3, ![1, 128, 256]⟩
abbrev S4x128x32768 : Shape := ⟨3, ![4, 128, 32768]⟩

abbrev nBuf : Space → Nat
  | .hbm => 21
  | .vmem => 9
  | .smem => 0
  | _ => 0

abbrev bufTy : (tb : Table) → Fin (tcTables nBuf tb) → BufTy
  | .hbm, ⟨0, _⟩ => ⟨S4x4x8x32768, .f32⟩
  | .hbm, ⟨1, _⟩ => ⟨S4x4x8x32768, .i32⟩
  | .hbm, ⟨2, _⟩ => ⟨S4x128x32x32x32, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4x4x8x32768, .i32⟩
  | .hbm, ⟨7, _⟩ => ⟨S4x4x8x32768, .i32⟩
  | .hbm, ⟨8, _⟩ => ⟨S_, .i32⟩
  | .hbm, ⟨9, _⟩ => ⟨S4x4x8x32768, .i32⟩
  | .hbm, ⟨10, _⟩ => ⟨S4x4x8x32768, .i32⟩
  | .hbm, ⟨11, _⟩ => ⟨S16x8x32768, .i32⟩
  | .hbm, ⟨12, _⟩ => ⟨S16x8x32768, .f32⟩
  | .hbm, ⟨13, _⟩ => ⟨S4x4x32x32768, .f32⟩
  | .hbm, ⟨14, _⟩ => ⟨S16x32x256x128, .f32⟩
  | .hbm, ⟨15, _⟩ => ⟨S16x32x128x256, .f32⟩
  | .hbm, ⟨16, _⟩ => ⟨S16x4096x256, .f32⟩
  | .hbm, ⟨17, _⟩ => ⟨S16x4096x256, .bf16⟩
  | .hbm, ⟨18, _⟩ => ⟨S16x32x32768, .f32⟩
  | .hbm, ⟨19, _⟩ => ⟨S4x4x32x32768, .f32⟩
  | .hbm, ⟨20, _⟩ => ⟨S4x128x32768, .f32⟩
  | .local _ .vmem, ⟨0, _⟩ => ⟨S1x4096x256, .bf16⟩
  | .local _ .vmem, ⟨1, _⟩ => ⟨S1x4096x256, .bf16⟩
  | .local _ .vmem, ⟨2, _⟩ => ⟨S1x8x256, .i32⟩
  | .local _ .vmem, ⟨3, _⟩ => ⟨S1x8x256, .i32⟩
  | .local _ .vmem, ⟨4, _⟩ => ⟨S1x8x256, .f32⟩
  | .local _ .vmem, ⟨5, _⟩ => ⟨S1x8x256, .f32⟩
  | .local _ .vmem, ⟨6, _⟩ => ⟨S1x32x256, .f32⟩
  | .local _ .vmem, ⟨7, _⟩ => ⟨S1x32x256, .f32⟩
  | .local _ .vmem, ⟨8, _⟩ => ⟨S32x256, .f32⟩
  | _, _ => ⟨S4x4x8x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x4x8x32768 : S_.BroadcastsInDim S4x4x8x32768 (![] : Fin 0 → Fin S4x4x8x32768.rank)
  shapeCasts_S4x4x8x32768_S16x8x32768 : S4x4x8x32768.ShapeCasts S16x8x32768
  shapeCasts_S4x128x32x32x32_S4x4x32x32768 : S4x128x32x32x32.ShapeCasts S4x4x32x32768
  shapeCasts_S4x4x32x32768_S16x32x256x128 : S4x4x32x32768.ShapeCasts S16x32x256x128
  transposes_S16x32x256x128_S16x32x128x256_0_1_3_2 : S16x32x256x128.Transposes [0, 1, 3, 2] S16x32x128x256
  shapeCasts_S16x32x128x256_S16x4096x256 : S16x32x128x256.ShapeCasts S16x4096x256
  bitsLt_bf16_f32 : FTy.bits .bf16 < FTy.bits .f32
  iota_S256x256_d0_w32 : S256x256.Iotas .tc 32 [0]
  iota_S128x256_d0_w32 : S128x256.Iotas .tc 32 [0]
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  slices_S8x256_o0_0_S1x256 : S8x256.Slices ![0, 0] S1x256
  shapeCasts_S1x256_S256 : S1x256.ShapeCasts S256
  shapeCasts_S256_S1x256 : S256.ShapeCasts S1x256
  broadcasts_S1x256_S256x256 : S1x256.Broadcasts S256x256
  shapeCasts_S1x256_S1x256 : S1x256.ShapeCasts S1x256
  shapeCasts_S4096x256_S32x128x256 : S4096x256.ShapeCasts S32x128x256
  broadcasts_S1x256_S128x256 : S1x256.Broadcasts S128x256
  natLt_1_32 : 1 < 32
  shapeCasts_S128x256_S1x128x256 : S128x256.ShapeCasts S1x128x256
  broadcasts_S1x128x256_S32x128x256 : S1x128x256.Broadcasts S32x128x256
  reduces_S32x128x256_S32x256 : S32x128x256.Reduces [1] S32x256
  slices_S8x256_o1_0_S1x256 : S8x256.Slices ![1, 0] S1x256
  slices_S8x256_o2_0_S1x256 : S8x256.Slices ![2, 0] S1x256
  slices_S8x256_o3_0_S1x256 : S8x256.Slices ![3, 0] S1x256
  slices_S8x256_o4_0_S1x256 : S8x256.Slices ![4, 0] S1x256
  slices_S8x256_o5_0_S1x256 : S8x256.Slices ![5, 0] S1x256
  slices_S8x256_o6_0_S1x256 : S8x256.Slices ![6, 0] S1x256
  slices_S8x256_o7_0_S1x256 : S8x256.Slices ![7, 0] S1x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  shapeCasts_S16x32x32768_S4x4x32x32768 : S16x32x32768.ShapeCasts S4x4x32x32768
  shapeCasts_S4x4x32x32768_S4x128x32768 : S4x4x32x32768.ShapeCasts S4x128x32768
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x4096x256.size a
  hwx0_0 : ∀ i : grid0.Coords, EltTy.bits .bf16 = 32 ∨ (Rect.block (s := S16x4096x256) S1x4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256.size a ≤ S16x8x32768.size a
  hwx0_1 : ∀ i : grid0.Coords, EltTy.bits .i32 = 32 ∨ (Rect.block (s := S16x8x32768) S1x8x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S16x8x32768.size a
  hwx0_2 : ∀ i : grid0.Coords, EltTy.bits .f32 = 32 ∨ (Rect.block (s := S16x8x32768) S1x8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256.size a ≤ S16x32x32768.size a
  hwx0_3 : ∀ i : grid0.Coords, EltTy.bits .f32 = 32 ∨ (Rect.block (s := S16x32x32768) S1x32x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v7) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4x8x32768 : Shape := ⟨4, ![4, 4, 8, 32768]⟩
abbrev S4x128x32x32x32 : Shape := ⟨5, ![4, 128, 32, 32, 32]⟩
abbrev S4x4x32x32768 : Shape := ⟨4, ![4, 4, 32, 32768]⟩
abbrev S4x4x1x262144 : Shape := ⟨4, ![4, 4, 1, 262144]⟩
abbrev S4x4x32x262144 : Shape := ⟨4, ![4, 4, 32, 262144]⟩
abbrev S_ : Shape := ⟨0, ![]⟩
abbrev S4x4x32x262144x1 : Shape := ⟨5, ![4, 4, 32, 262144, 1]⟩
abbrev S1 : Shape := ⟨1, ![1]⟩
abbrev S1x1x1x1x1 : Shape := ⟨5, ![1, 1, 1, 1, 1]⟩
abbrev S4x4x32x8x32768 : Shape := ⟨5, ![4, 4, 32, 8, 32768]⟩
abbrev S4x4x1x8x32768 : Shape := ⟨5, ![4, 4, 1, 8, 32768]⟩
abbrev S4x128x32768 : Shape := ⟨3, ![4, 128, 32768]⟩

abbrev nBuf : Space → Nat
  | .hbm => 35
  | .vmem => 0
  | .smem => 0
  | _ => 0

abbrev bufTy : (tb : Table) → Fin (tcTables nBuf tb) → BufTy
  | .hbm, ⟨0, _⟩ => ⟨S4x4x8x32768, .f32⟩
  | .hbm, ⟨1, _⟩ => ⟨S4x4x8x32768, .i32⟩
  | .hbm, ⟨2, _⟩ => ⟨S4x128x32x32x32, .f32⟩
  | .hbm, ⟨3, _⟩ => ⟨S4x4x32x32768, .f32⟩
  | .hbm, ⟨4, _⟩ => ⟨S4x4x1x262144, .i32⟩
  | .hbm, ⟨5, _⟩ => ⟨S4x4x32x262144, .i32⟩
  | .hbm, ⟨6, _⟩ => ⟨S_, .i32⟩
  | .hbm, ⟨7, _⟩ => ⟨S4x4x32x262144, .i32⟩
  | .hbm, ⟨8, _⟩ => ⟨S4x4x32x262144, .i1⟩
  | .hbm, ⟨9, _⟩ => ⟨S_, .i32⟩
  | .hbm, ⟨10, _⟩ => ⟨S4x4x32x262144, .i32⟩
  | .hbm, ⟨11, _⟩ => ⟨S4x4x32x262144, .i32⟩
  | .hbm, ⟨12, _⟩ => ⟨S4x4x32x262144, .i32⟩
  | .hbm, ⟨13, _⟩ => ⟨S4x4x32x262144x1, .i32⟩
  | .hbm, ⟨14, _⟩ => ⟨S1, .i32⟩
  | .hbm, ⟨15, _⟩ => ⟨S_, .i32⟩
  | .hbm, ⟨16, _⟩ => ⟨S4x4x32x262144x1, .i32⟩
  | .hbm, ⟨17, _⟩ => ⟨S4x4x32x262144x1, .i1⟩
  | .hbm, ⟨18, _⟩ => ⟨S1x1x1x1x1, .i32⟩
  | .hbm, ⟨19, _⟩ => ⟨S4x4x32x262144x1, .i32⟩
  | .hbm, ⟨20, _⟩ => ⟨S4x4x32x262144x1, .i1⟩
  | .hbm, ⟨21, _⟩ => ⟨S4x4x32x262144x1, .i1⟩
  | .hbm, ⟨22, _⟩ => ⟨S_, .i1⟩
  | .hbm, ⟨23, _⟩ => ⟨S4x4x32x262144, .i1⟩
  | .hbm, ⟨24, _⟩ => ⟨S4x4x32x262144, .f32⟩
  | .hbm, ⟨25, _⟩ => ⟨S_, .f32⟩
  | .hbm, ⟨26, _⟩ => ⟨S4x4x32x262144, .f32⟩
  | .hbm, ⟨27, _⟩ => ⟨S4x4x32x262144, .f32⟩
  | .hbm, ⟨28, _⟩ => ⟨S4x4x32x8x32768, .f32⟩
  | .hbm, ⟨29, _⟩ => ⟨S4x4x1x8x32768, .f32⟩
  | .hbm, ⟨30, _⟩ => ⟨S4x4x32x8x32768, .f32⟩
  | .hbm, ⟨31, _⟩ => ⟨S4x4x32x8x32768, .f32⟩
  | .hbm, ⟨32, _⟩ => ⟨S_, .f32⟩
  | .hbm, ⟨33, _⟩ => ⟨S4x4x32x32768, .f32⟩
  | .hbm, ⟨34, _⟩ => ⟨S4x128x32768, .f32⟩
  | _, _ => ⟨S4x4x8x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩

abbrev nD : Nat := 1
abbrev τ : Topo := Topo.v7x

variable {F : FTy → Type} [FloatOps F]

class Facts₀ : Prop where
  shapeCasts_S4x128x32x32x32_S4x4x32x32768 : S4x128x32x32x32.ShapeCasts S4x4x32x32768
  shapeCasts_S4x4x8x32768_S4x4x1x262144 : S4x4x8x32768.ShapeCasts S4x4x1x262144
  bcast_S4x4x1x262144_S4x4x32x262144_0_1_2_3 : S4x4x1x262144.BroadcastsInDim S4x4x32x262144 (![0, 1, 2, 3] : Fin 4 → Fin S4x4x32x262144.rank)
  bcast_S_S4x4x32x262144 : S_.BroadcastsInDim S4x4x32x262144 (![] : Fin 0 → Fin S4x4x32x262144.rank)
  shapeCasts_S4x4x32x262144_S4x4x32x262144x1 : S4x4x32x262144.ShapeCasts S4x4x32x262144x1
  bcast_S_S4x4x32x262144x1 : S_.BroadcastsInDim S4x4x32x262144x1 (![] : Fin 0 → Fin S4x4x32x262144x1.rank)
  bcast_S1_S1x1x1x1x1_4 : S1.BroadcastsInDim S1x1x1x1x1 (![4] : Fin 1 → Fin S1x1x1x1x1.rank)
  bcast_S1x1x1x1x1_S4x4x32x262144x1_0_1_2_3_4 : S1x1x1x1x1.BroadcastsInDim S4x4x32x262144x1 (![0, 1, 2, 3, 4] : Fin 5 → Fin S4x4x32x262144x1.rank)
  reducesTo_S4x4x32x262144x1_S4x4x32x262144_d4 : S4x4x32x262144x1.ReducesTo [4] S4x4x32x262144
  h_S_ : 0 < S_.numel
  shapeCasts_S4x4x32x262144_S4x4x32x8x32768 : S4x4x32x262144.ShapeCasts S4x4x32x8x32768
  bcast_S4x4x8x32768_S4x4x1x8x32768_0_1_3_4 : S4x4x8x32768.BroadcastsInDim S4x4x1x8x32768 (![0, 1, 3, 4] : Fin 4 → Fin S4x4x1x8x32768.rank)
  bcast_S4x4x1x8x32768_S4x4x32x8x32768_0_1_2_3_4 : S4x4x1x8x32768.BroadcastsInDim S4x4x32x8x32768 (![0, 1, 2, 3, 4] : Fin 5 → Fin S4x4x32x8x32768.rank)
  reducesTo_S4x4x32x8x32768_S4x4x32x32768_d3 : S4x4x32x8x32768.ReducesTo [3] S4x4x32x32768
  shapeCasts_S4x4x32x32768_S4x128x32768 : S4x4x32x32768.ShapeCasts S4x128x32768
  gather_S4x4x32x32768_S4x4x32x262144x1_S4x4x32x262144_n_3_012_012_3_4_1111_wf : GatherDims.WF S4x4x32x32768 S4x4x32x262144x1 S4x4x32x262144 [] [3] [0, 1, 2] [3] [0, 1, 2] 4 ![1, 1, 1, 1]

variable [Facts₀]

def gather_S4x4x32x32768_S4x4x32x262144x1_S4x4x32x262144_n_3_012_012_3_4_1111 : GatherDims S4x4x32x32768 S4x4x32x262144x1 S4x4x32x262144 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x4x32x32768_S4x4x32x262144x1_S4x4x32x262144_n_3_012_012_3_4_1111_wf

class Facts : Prop extends Facts₀ where

variable [Facts]
-- ==== Proof.Payload.lean ====
/-
  The kernel body's arithmetic as one term. Each of the eight rounds s = 0 … 7 of the body selects, for every column n of the
  point's block, one table row out of 32768: the index word idx[s, n] is cut into its high part hi = idx >> 7 and its low part
  lo = idx & 127; a weighted one-hot column (w[s, n] at row hi, zero elsewhere) is multiplied into the table laid out as
  [32·128, 256] (row f·128 + lo', column hi'), and of the 128 candidates lo' the one equal to lo is kept by a 0/1 mask and a
  sum over lo'. `pick` is that round's [32, 256] contribution as a function of the table block, the index block and the
  weight block, for a row offset of the two [8, 256] blocks; the accumulator starts at zero and takes the eight
  contributions in order (`total`), and the output block is the accumulator reshaped to [1, 32, 256].
  The lemmas `round0` … `round7` say that each round's stored value is the accumulator it read plus `pick` at its row.
-/
import proofs.«418057_j60662118088797_3_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable {F : FTy → Type} [FloatOps F]

/-- Row `off 0` of an [8, 256] block as a [256] vector. -/
def rowOf {α : Type} (off : Fin S8x256.rank → Nat) (hs : S8x256.Slices off S1x256) (x : S8x256.Idx → α) : S256.Idx → α :=
  shapeCast S256 (extractStridedSlice S1x256 off x hs) shapeCasts_S1x256_S256

/-- One round's contribution: for each (f, n) the sum over lo' of (table · one-hot)(f·128 + lo', n) times the mask (lo' = lo). -/
def pick (off : Fin S8x256.rank → Nat) (hs : S8x256.Slices off S1x256)
    (tbl : FVec F S4096x256 .bf16) (idx : IVec S8x256 32) (wt : FVec F S8x256 .f32) : FVec F S32x256 .f32 :=
  have v0 : IVec S256x256 32 := iota .tc S256x256 32 [0] iota_S256x256_d0_w32
  have v1 : IVec S128x256 32 := iota .tc S128x256 32 [0] iota_S128x256_d0_w32
  have v13 : IVec S256 32 := rowOf off hs idx
  have v15 : FVec F S256 .f32 := rowOf off hs wt
  have v17 : IVec S256 32 := shrsi v13 (broadcast S256 7#32)
  have v19 : IVec S256 32 := andi v13 (broadcast S256 127#32)
  have v21 : IVec S256x256 32 := broadcastTo S256x256 (shapeCast S1x256 v17 shapeCasts_S256_S1x256) broadcasts_S1x256_S256x256
  have v22 : IVec S256x256 1 := cmpi .eq v0 v21
  have v24 : FVec F S1x256 .f32 := shapeCast S1x256 (shapeCast S1x256 v15 shapeCasts_S256_S1x256) shapeCasts_S1x256_S1x256
  have v25 : FVec F S256x256 .f32 := broadcastTo S256x256 v24 broadcasts_S1x256_S256x256
  have v27 : FVec F S256x256 .f32 := select v22 v25 (broadcast S256x256 (Scalar.ofBits .f32 0x00000000#32))
  have v28 : FVec F S256x256 .bf16 := truncf .bf16 v27 bitsLt_bf16_f32
  have v29 : FVec F S4096x256 .f32 := matmul dot_S4096x256_S256x256_S4096x256_1_0_0_1_n_n none tbl v28 (constant S4096x256 .f32 0x00000000#32)
  have v30 : FVec F S32x128x256 .f32 := shapeCast S32x128x256 v29 shapeCasts_S4096x256_S32x128x256
  have v32 : IVec S128x256 32 := broadcastTo S128x256 (shapeCast S1x256 v19 shapeCasts_S256_S1x256) broadcasts_S1x256_S128x256
  have v33 : IVec S128x256 1 := cmpi .eq v1 v32
  have v35 : FVec F S128x256 .f32 := sitofp .f32 (extui 32 v33 natLt_1_32)
  have v37 : FVec F S32x128x256 .f32 := broadcastTo S32x128x256 (shapeCast S1x128x256 v35 shapeCasts_S128x256_S1x128x256) broadcasts_S1x128x256_S32x128x256
  multiReduction .add [1] S32x256 (mulf v30 v37) 0x00000000#32 reduces_S32x128x256_S32x256 (.inl rfl) rfl

/-- The accumulator after the eight rounds, from zero. -/
def total (tbl : FVec F S4096x256 .bf16) (idx : IVec S8x256 32) (wt : FVec F S8x256 .f32) : FVec F S32x256 .f32 :=
  addf (addf (addf (addf (addf (addf (addf (addf (broadcast S32x256 (Scalar.ofBits .f32 0x00000000#32))
    (pick ![0, 0] slices_S8x256_o0_0_S1x256 tbl idx wt))
    (pick ![1, 0] slices_S8x256_o1_0_S1x256 tbl idx wt))
    (pick ![2, 0] slices_S8x256_o2_0_S1x256 tbl idx wt))
    (pick ![3, 0] slices_S8x256_o3_0_S1x256 tbl idx wt))
    (pick ![4, 0] slices_S8x256_o4_0_S1x256 tbl idx wt))
    (pick ![5, 0] slices_S8x256_o5_0_S1x256 tbl idx wt))
    (pick ![6, 0] slices_S8x256_o6_0_S1x256 tbl idx wt))
    (pick ![7, 0] slices_S8x256_o7_0_S1x256 tbl idx wt)

local notation "io0" => iota Kind.tc S256x256 32 [0] iota_S256x256_d0_w32
local notation "io1" => iota Kind.tc S128x256 32 [0] iota_S128x256_d0_w32

theorem start_eq : (k0_pay6 : FVec F S32x256 .f32) = broadcast S32x256 (Scalar.ofBits .f32 0x00000000#32) :=
  shapeCast_self (broadcast S32x256 (Scalar.ofBits .f32 0x00000000#32)) shapeCasts_S32x256_S32x256

theorem round0 (v2 : Vec F S1x4096x256 .bf16) (v4 : Vec F S1x8x256 .i32) (v6 : Vec F S1x8x256 .f32) (acc : Vec F S32x256 .f32) :
    k0_pay8 (k0_pay7 v2 v4 v6) acc = addf acc (pick ![0, 0] slices_S8x256_o0_0_S1x256 (k0_pay3 v2) (k0_pay4 v4) (k0_pay5 v6)) :=
  shapeCast_self (addf acc (pick ![0, 0] slices_S8x256_o0_0_S1x256 (k0_pay3 v2) (k0_pay4 v4) (k0_pay5 v6))) shapeCasts_S32x256_S32x256

theorem round1 (v3 : FVec F S4096x256 .bf16) (v5 : IVec S8x256 32) (v7 : FVec F S8x256 .f32) (acc : Vec F S32x256 .f32) :
    k0_pay9 io0 io1 v3 v5 v7 acc = addf acc (pick ![1, 0] slices_S8x256_o1_0_S1x256 v3 v5 v7) :=
  shapeCast_self (addf acc (pick ![1, 0] slices_S8x256_o1_0_S1x256 v3 v5 v7)) shapeCasts_S32x256_S32x256

theorem round2 (v3 : FVec F S4096x256 .bf16) (v5 : IVec S8x256 32) (v7 : FVec F S8x256 .f32) (acc : Vec F S32x256 .f32) :
    k0_pay13 io0 io1 v3 (k0_pay10 v5) (k0_pay11 v7) (k0_pay12 v5) acc = addf acc (pick ![2, 0] slices_S8x256_o2_0_S1x256 v3 v5 v7) :=
  shapeCast_self (addf acc (pick ![2, 0] slices_S8x256_o2_0_S1x256 v3 v5 v7)) shapeCasts_S32x256_S32x256

theorem round3 (v3 : FVec F S4096x256 .bf16) (v5 : IVec S8x256 32) (v7 : FVec F S8x256 .f32) (acc : Vec F S32x256 .f32) :
    k0_pay17 io1 (k0_pay15 io0 v3 v5 v7) (k0_pay16 v5) acc = addf acc (pick ![3, 0] slices_S8x256_o3_0_S1x256 v3 v5 v7) :=
  shapeCast_self (addf acc (pick ![3, 0] slices_S8x256_o3_0_S1x256 v3 v5 v7)) shapeCasts_S32x256_S32x256

theorem round4 (v3 : FVec F S4096x256 .bf16) (v5 : IVec S8x256 32) (v7 : FVec F S8x256 .f32) (acc : Vec F S32x256 .f32) :
    k0_pay19 (k0_pay18 io0 io1 v3 v5 v7 acc) = addf acc (pick ![4, 0] slices_S8x256_o4_0_S1x256 v3 v5 v7) :=
  shapeCast_self (addf acc (pick ![4, 0] slices_S8x256_o4_0_S1x256 v3 v5 v7)) shapeCasts_S32x256_S32x256

theorem round5 (v3 : FVec F S4096x256 .bf16) (v5 : IVec S8x256 32) (v7 : FVec F S8x256 .f32) (acc : Vec F S32x256 .f32) :
    k0_pay20 io0 io1 v3 v5 v7 acc = addf acc (pick ![5, 0] slices_S8x256_o5_0_S1x256 v3 v5 v7) :=
  shapeCast_self (addf acc (pick ![5, 0] slices_S8x256_o5_0_S1x256 v3 v5 v7)) shapeCasts_S32x256_S32x256

theorem round6 (v3 : FVec F S4096x256 .bf16) (v5 : IVec S8x256 32) (v7 : FVec F S8x256 .f32) (acc : Vec F S32x256 .f32) :
    k0_pay25 io1 v3 (k0_pay22 v5) (k0_pay23 io0 v5) (k0_pay24 v7) (FloatOps.ofBits FTy.f32 0#32) acc
      = addf acc (pick ![6, 0] slices_S8x256_o6_0_S1x256 v3 v5 v7) :=
  shapeCast_self (addf acc (pick ![6, 0] slices_S8x256_o6_0_S1x256 v3 v5 v7)) shapeCasts_S32x256_S32x256

theorem round7 (v3 : FVec F S4096x256 .bf16) (v5 : IVec S8x256 32) (v7 : FVec F S8x256 .f32) (acc : Vec F S32x256 .f32) :
    k0_pay1 (k0_pay26 io0 io1 v3 v5 v7) acc = addf acc (pick ![7, 0] slices_S8x256_o7_0_S1x256 v3 v5 v7) :=
  shapeCast_self (addf acc (pick ![7, 0] slices_S8x256_o7_0_S1x256 v3 v5 v7)) shapeCasts_S32x256_S32x256

private theorem hz3 : (![0, 0, 0] : Fin 3 → Nat) = fun _ => 0 := by funext a; fin_cases a <;> rfl
private theorem hz2 : (![0, 0] : Fin 2 → Nat) = fun _ => 0 := by funext a; fin_cases a <;> rfl

/-- A load of the whole accumulator after stores of which the LAST wrote the whole accumulator reads that last value, whatever
    was stored before. -/
private theorem readCov_last {sig : RefSig} {κ : Kind} {sp : Space} {Val : EltTy → Type} [∀ e, Nonempty (Val e)] {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- What the body leaves in the output's staging buffer at any point: the eight rounds' sum over the point's three input
    blocks, as a [1, 32, 256] block. -/
theorem out_eq (c : Dev nD) (i : grid0.Coords) (arg2 : Memref sig .tc .vmem S1x4096x256 .bf16) (harg2 : arg2.IsWhole) (arg3 : Memref sig .tc .vmem S1x8x256 .i32) (harg3 : arg3.IsWhole) (arg4 : Memref sig .tc .vmem S1x8x256 .f32) (harg4 : arg4.IsWhole) (arg5 : Memref sig .tc .vmem S1x32x256 .f32) (harg5 : arg5.IsWhole) (arg6 : Memref sig .tc .vmem S32x256 .f32) (harg6 : arg6.IsWhole)
    (x0 : Vec F S1x4096x256 .bf16) (x1 : Vec F S1x8x256 .i32) (x2 : Vec F S1x8x256 .f32) :
    out0_A_3 c i arg2 harg2 arg3 harg3 arg4 harg4 arg5 harg5 arg6 harg6 x0 x1 x2
      = shapeCast S1x32x256 (total (k0_pay3 x0) (k0_pay4 x1) (k0_pay5 x2)) shapeCasts_S32x256_S1x32x256 := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz3]
  simp only [View.readAt_eq_ld, harg2.read_unread, harg3.read_unread, harg4.read_unread,
    View.ld_unit_zero (S := S1x4096x256) hz3, View.ld_unit_zero (S := S1x8x256) hz3,
    View.readCov_unit_zero (S := S32x256) _ hz2, readCov_last (S := S32x256) _ hz2]
  rw [round0, round1, round2, round3, round4, round5, round6, round7, start_eq]
  rfl

end Cert.KernelIdeal.Body

end
-- ==== Proof.Spec.lean ====
/-
  What both programs compute, before the last reshape they share. The inputs are the weights w and the index words idx, both
  [4, 4, 8, 32768] (batch b, head h, corner s, point n), and the table z of shape [4, 4, 32, 32768] (the feature array with its
  channel axis split into head and feature f and its three spatial axes flattened). Element (b, h, f, n) of the result is the
  weighted sum over the eight corners s of the table entry the corner's index word names:
      Σ_s z[b, h, f, idx[b, h, s, n]] · w[b, h, s, n].
-/
import Idealize.ShloMosaic.PureOps.Ideal
import Idealize.ShloMosaic.Lib.ValueIdx

noncomputable section

namespace Cert.Spec

open Idealize.ShloMosaic Idealize.ShloMosaic.ValueIdx

/-- Weights and index words. -/
abbrev SW : Shape := ⟨4, ![4, 4, 8, 32768]⟩
/-- The table, and the result before its last reshape. -/
abbrev SZ : Shape := ⟨4, ![4, 4, 32, 32768]⟩

/-- The table position an index word names: its value (every admitted word is below 32768, so the remainder changes nothing there). -/
def pos (a : BitVec 32) : Fin 32768 := ⟨a.toNat % 32768, Nat.mod_lt _ (by decide)⟩

theorem pos_val_of_lt {a : BitVec 32} (h : a.toNat < 32768) : (pos a).val = a.toNat := Nat.mod_eq_of_lt h

/-- The kernel keeps the table of one (b, h) as 4096 rows by 256 columns: position p of feature f sits in row f·128 + p mod 128 and
    column p div 128. The row of feature f for an index value I: -/
def rowAt (f : Fin 32) (I : ℕ) : Fin 4096 := ⟨f.val * 128 + I % 128, by have := f.isLt; have := Nat.mod_lt I (by decide : 0 < 128); omega⟩
/-- and its column (the remainder changes nothing below 32768). -/
def colAt (I : ℕ) : Fin 256 := ⟨I / 128 % 256, Nat.mod_lt _ (by decide)⟩

theorem colAt_val_of_lt {I : ℕ} (h : I < 32768) : (colAt I).val = I / 128 := Nat.mod_eq_of_lt (by omega)

/-- The weighted sum of the eight table entries of (b, h, f, n). -/
def mixAt (w : SW.Idx → EReal) (idx : SW.Idx → BitVec 32) (z : SZ.Idx → EReal) (b h : Fin 4) (f : Fin 32) (n : Fin 32768) : EReal :=
  ∑ s : Fin 8, z (ix4 b h f (pos (idx (ix4 b h s n)))) * w (ix4 b h s n)

/-- The same as a [4, 4, 32, 32768] array. -/
def mix (w : SW.Idx → EReal) (idx : SW.Idx → BitVec 32) (z : SZ.Idx → EReal) : SZ.Idx → EReal :=
  fun i => mixAt w idx z (i 0) (i 1) (i 2) (i 3)

theorem mix_apply (w : SW.Idx → EReal) (idx : SW.Idx → BitVec 32) (z : SZ.Idx → EReal) (b h : Fin 4) (f : Fin 32) (n : Fin 32768) :
    mix w idx z (ix4 b h f n) = mixAt w idx z b h f n := rfl

end Cert.Spec

end
-- ==== Proof.PickAt.lean ====
/-
  One round of the kernel body read at an element, at the ideal values. Round s takes row s of the index block and of the
  weight block; an index word I below 32768 is cut into hi = I / 128 and lo = I % 128. The weighted one-hot matrix has
  w[s, n] at (hi, n) and zero elsewhere, so the product of the table block with it, at row r and column n, is the sum over
  hi' of table[r, hi'] times that entry: one term, table[r, hi] · w[s, n]. The product viewed as [32, 128, 256] holds at
  (f, lo', n) the entry of row f·128 + lo'; the mask is 1 at lo' = lo and 0 elsewhere, so the sum over lo' keeps one term
  again: table[f·128 + lo, hi] · w[s, n]. The accumulator after the eight rounds, from zero, is the sum of the eight.
-/
import proofs.«418057_j60662118088797_3_alg».proof.Proof.Payload
import proofs.«418057_j60662118088797_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

namespace Cert.KernelIdeal.Body

open Cert.KernelIdeal Cert.KernelIdeal.Gen Idealize.ShloMosaic Idealize.ShloMosaic.ValueIdx

/-! ## Words: the two halves of an index word below 32768 -/

/-- The arithmetic shift right by 7 of a small non-negative word is its value divided by 128. -/
theorem hi_word (a : BitVec 32) (h : a.toNat < 32768) :
    IntOp.shrsi .vector a 7#32 = BitVec.ofNat 32 (a.toNat / 128) := by
  unfold IntOp.shrsi
  rw [if_pos (by decide)]
  apply BitVec.eq_of_toNat_eq
  have hm : a.msb = false := BitVec.msb_eq_false_iff_two_mul_lt.mpr (by omega)
  show (a.sshiftRight 7).toNat = _
  rw [BitVec.sshiftRight_eq_of_msb_false hm, BitVec.toNat_ushiftRight, BitVec.toNat_ofNat, Nat.shiftRight_eq_div_pow]
  omega

/-- The low seven bits of a word are its value modulo 128. -/
theorem lo_word (a : BitVec 32) :
    IntOp.andi a 127#32 = BitVec.ofNat 32 (a.toNat % 128) := by
  unfold IntOp.andi
  apply BitVec.eq_of_toNat_eq
  rw [BitVec.toNat_and]
  show a.toNat &&& (2 ^ 7 - 1) = _
  rw [Nat.and_two_pow_sub_one_eq_mod, BitVec.toNat_ofNat]
  omega

/-! ## The integer operations at an index (pointwise, by definition) -/

theorem cmpi_at {s : Shape} {w : Nat} (p : CmpIPredicate) (x y : IVec s w) (i : s.Idx) :
    cmpi p x y i = IntOp.cmpi p (x i) (y i) := rfl
theorem shrsi_at {s : Shape} {w : Nat} (x y : IVec s w) (i : s.Idx) : shrsi x y i = IntOp.shrsi .vector (x i) (y i) := rfl
theorem andi_at {s : Shape} {w : Nat} (x y : IVec s w) (i : s.Idx) : andi x y i = IntOp.andi (x i) (y i) := rfl

/-! ## The layout steps of a round -/

/-- Row s of an [8, 256] block, as a vector, holds at n the block's entry (s, n). -/
theorem rowOf_apply {α : Type} (s : Fin 8) (hs : S8x256.Slices ![s.val, 0] S1x256) (x : S8x256.Idx → α) (n : Fin 256) :
    rowOf ![s.val, 0] hs x (ix1 n) = x (ix2 s n) := by
  unfold rowOf
  rw [shapeCast_1a_a_apply]
  exact slice2_axis0_apply s.val x hs (0 : Fin 1) n s (by simp)

/-- A [256] vector laid as one row and repeated over 256 rows holds at (h, n) the vector's entry n. -/
theorem rows256_apply {α : Type} (v : S256.Idx → α) (h n : Fin 256) :
    broadcastTo S256x256 (shapeCast S1x256 v shapeCasts_S256_S1x256) broadcasts_S1x256_S256x256 (ix2 h n) = v (ix1 n) := by
  rw [broadcastTo_1b_ab_apply, shapeCast_a_1a_apply]

/-- The same over 128 rows. -/
theorem rows128_apply {α : Type} (v : S256.Idx → α) (l : Fin 128) (n : Fin 256) :
    broadcastTo S128x256 (shapeCast S1x256 v shapeCasts_S256_S1x256) broadcasts_S1x256_S128x256 (ix2 l n) = v (ix1 n) := by
  rw [broadcastTo_1b_ab_apply, shapeCast_a_1a_apply]

/-- The row counter of the [256, 256] grid. -/
theorem rowIota256_apply (h n : Fin 256) :
    iota .tc S256x256 32 [0] iota_S256x256_d0_w32 (ix2 h n) = BitVec.ofNat 32 h.val :=
  iota_single_apply .tc S256x256 32 0 iota_S256x256_d0_w32 (ix2 h n)

/-- The row counter of the [128, 256] grid. -/
theorem rowIota128_apply (l : Fin 128) (n : Fin 256) :
    iota .tc S128x256 32 [0] iota_S128x256_d0_w32 (ix2 l n) = BitVec.ofNat 32 l.val :=
  iota_single_apply .tc S128x256 32 0 iota_S128x256_d0_w32 (ix2 l n)

/-- The [4096, 256] product viewed as [32, 128, 256]: entry (f, l, n) is row f·128 + l, column n. -/
theorem split_apply {α : Type} (x : S4096x256.Idx → α) (f : Fin 32) (l : Fin 128) (n : Fin 256) :
    shapeCast S32x128x256 x shapeCasts_S4096x256_S32x128x256 (ix3 f l n)
      = x (ix2 (⟨f.val * 128 + l.val, by have := f.isLt; have := l.isLt; omega⟩ : Fin 4096) n) :=
  shapeCast_apply x _ _ _ (by
    rw [Shape.rowMajor_val_two, Shape.rowMajor_val_three]
    rfl)

/-- A [128, 256] array given a leading unit axis and repeated over the 32 features holds at (f, l, n) its entry (l, n). -/
theorem feat_apply {α : Type} (x : S128x256.Idx → α) (f : Fin 32) (l : Fin 128) (n : Fin 256) :
    broadcastTo S32x128x256 (shapeCast S1x128x256 x shapeCasts_S128x256_S1x128x256) broadcasts_S1x128x256_S32x128x256 (ix3 f l n)
      = x (ix2 l n) := by
  refine (broadcastTo_apply _ broadcasts_S1x128x256_S32x128x256 (ix3 f l n) (ix3 (0 : Fin 1) l n) fun ax => ?_).trans ?_
  · match ax with
    | ⟨0, _⟩ => rfl
    | ⟨1, _⟩ => rfl
    | ⟨2, _⟩ => rfl
  · exact shapeCast_ab_1ab_apply x _ (0 : Fin 1) l n

/-! ## The two selectors of a round, as functions of the round's row of index words and of weights -/

/-- The weighted one-hot matrix: the weight of column n at row hi(n), zero elsewhere. -/
def onehot (iv : IVec S256 32) (wv : FVec Ideal S256 .f32) : FVec Ideal S256x256 .bf16 :=
  truncf .bf16
    (select
      (cmpi .eq (iota .tc S256x256 32 [0] iota_S256x256_d0_w32)
        (broadcastTo S256x256 (shapeCast S1x256 (shrsi iv (broadcast S256 7#32)) shapeCasts_S256_S1x256) broadcasts_S1x256_S256x256))
      (broadcastTo S256x256 (shapeCast S1x256 (shapeCast S1x256 wv shapeCasts_S256_S1x256) shapeCasts_S1x256_S1x256) broadcasts_S1x256_S256x256)
      (broadcast S256x256 (Scalar.ofBits .f32 0x00000000#32)))
    bitsLt_bf16_f32

/-- The mask: one at (f, lo(n), n), zero elsewhere. -/
def mask (iv : IVec S256 32) : FVec Ideal S32x128x256 .f32 :=
  broadcastTo S32x128x256
    (shapeCast S1x128x256
      (sitofp .f32
        (extui 32
          (cmpi .eq (iota .tc S128x256 32 [0] iota_S128x256_d0_w32)
            (broadcastTo S128x256 (shapeCast S1x256 (andi iv (broadcast S256 127#32)) shapeCasts_S256_S1x256) broadcasts_S1x256_S128x256))
          natLt_1_32))
      shapeCasts_S128x256_S1x128x256)
    broadcasts_S1x128x256_S32x128x256

/-- A round's contribution in these terms. -/
theorem pick_eq (off : Fin S8x256.rank → Nat) (hs : S8x256.Slices off S1x256)
    (tbl : FVec Ideal S4096x256 .bf16) (idx : IVec S8x256 32) (wt : FVec Ideal S8x256 .f32) :
    pick (F := Ideal) off hs tbl idx wt
      = multiReduction (F := Ideal) .add [1] S32x256
          (mulf
            (shapeCast S32x128x256
              (matmul dot_S4096x256_S256x256_S4096x256_1_0_0_1_n_n none tbl (onehot (rowOf off hs idx) (rowOf off hs wt))
                (constant (F := Ideal) S4096x256 .f32 0x00000000#32))
              shapeCasts_S4096x256_S32x128x256)
            (mask (rowOf off hs idx)))
          0x00000000#32 reduces_S32x128x256_S32x256 (.inl rfl) rfl := rfl

/-- The one-hot matrix at (h, n). -/
theorem onehot_apply (iv : IVec S256 32) (wv : FVec Ideal S256 .f32) (h n : Fin 256) (hI : (iv (ix1 n)).toNat < 32768) :
    onehot iv wv (ix2 h n) = if h.val = (iv (ix1 n)).toNat / 128 then wv (ix1 n) else 0 := by
  unfold onehot
  rw [truncf_apply, select_apply, cmpi_at, rowIota256_apply, rows256_apply, shapeCast_self, rows256_apply, shrsi_at,
    broadcast_apply, broadcast_apply, hi_word _ hI]
  have hh := h.isLt
  by_cases hc : h.val = (iv (ix1 n)).toNat / 128
  · rw [if_pos hc, hc, Idealize.ShloMosaic.StableHlo.Predicate.cmpi_eq_iff.mpr rfl, select_one]
  · rw [if_neg hc]
    have hne : ¬ IntOp.cmpi .eq (BitVec.ofNat 32 h.val) (BitVec.ofNat 32 ((iv (ix1 n)).toNat / 128)) = 1#1 := by
      rw [Idealize.ShloMosaic.StableHlo.Predicate.cmpi_eq_iff]
      intro he
      have := congrArg BitVec.toNat he
      rw [BitVec.toNat_ofNat, BitVec.toNat_ofNat] at this
      omega
    rw [eq_zero_of_ne_one hne, select_zero]
    exact Ideal.ofBits_zero_f32

/-- The mask at (f, l, n). -/
theorem mask_apply (iv : IVec S256 32) (f : Fin 32) (l : Fin 128) (n : Fin 256) :
    mask iv (ix3 f l n) = if l.val = (iv (ix1 n)).toNat % 128 then 1 else 0 := by
  unfold mask
  rw [feat_apply, sitofp_apply, extui_apply, cmpi_at, rowIota128_apply, rows128_apply, andi_at, broadcast_apply, lo_word]
  have hl := l.isLt
  by_cases hc : l.val = (iv (ix1 n)).toNat % 128
  · rw [if_pos hc, hc, Idealize.ShloMosaic.StableHlo.Predicate.cmpi_eq_iff.mpr rfl]
    show (((BitVec.setWidth 32 1#1).toInt : ℝ) : EReal) = 1
    have : (BitVec.setWidth 32 1#1).toInt = 1 := by decide
    rw [this]; simp
  · rw [if_neg hc]
    have hne : ¬ IntOp.cmpi .eq (BitVec.ofNat 32 l.val) (BitVec.ofNat 32 ((iv (ix1 n)).toNat % 128)) = 1#1 := by
      rw [Idealize.ShloMosaic.StableHlo.Predicate.cmpi_eq_iff]
      intro he
      have := congrArg BitVec.toNat he
      rw [BitVec.toNat_ofNat, BitVec.toNat_ofNat] at this
      omega
    rw [eq_zero_of_ne_one hne]
    show (((BitVec.setWidth 32 0#1).toInt : ℝ) : EReal) = 0
    have : (BitVec.setWidth 32 0#1).toInt = 0 := by decide
    rw [this]; simp

/-! ## The product on the matrix unit at an index -/

/-- The left operand's row at output index i is i's row … -/
theorem lhs_prod_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- … its column the contraction position; -/
theorem lhs_prod_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- the right operand's row is the contraction position … -/
theorem rhs_prod_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- … and its column i's column. -/
theorem rhs_prod_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The product into the zero accumulator at (r, n): the sum over k of table[r, k] · m[k, n]. -/
theorem prod_apply (tbl : FVec Ideal S4096x256 .bf16) (m : FVec Ideal S256x256 .bf16) (r : Fin 4096) (n : Fin 256) :
    matmul dot_S4096x256_S256x256_S4096x256_1_0_0_1_n_n none tbl m (constant (F := Ideal) S4096x256 .f32 0x00000000#32) (ix2 r n)
      = ∑ k : Fin 256, tbl (ix2 r k) * m (ix2 k n) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r n) ((contrEquiv1 dot_S4096x256_S256x256_S4096x256_1_0_0_1_n_n 256 rfl rfl).symm k) = ix2 r k := funext fun a => Fin.ext (by
    match a with
    | ⟨0, _⟩ => exact lhs_prod_0 _ _
    | ⟨1, _⟩ => exact (lhs_prod_1 _ _).trans hk)
  have er : dot_S4096x256_S256x256_S4096x256_1_0_0_1_n_n.rhsIdx (ix2 r n) ((contrEquiv1 dot_S4096x256_S256x256_S4096x256_1_0_0_1_n_n 256 rfl rfl).symm k) = ix2 k n := funext fun a => Fin.ext (by
    match a with
    | ⟨0, _⟩ => exact (rhs_prod_0 _ _).trans hk
    | ⟨1, _⟩ => exact rhs_prod_1 _ _)
  rw [el, er]

/-- With the one-hot matrix on the right the sum has one term: table[r, hi(n)] · w[n]. -/
theorem prod_onehot_apply (tbl : FVec Ideal S4096x256 .bf16) (iv : IVec S256 32) (wv : FVec Ideal S256 .f32) (r : Fin 4096) (n : Fin 256)
    (hI : (iv (ix1 n)).toNat < 32768) :
    matmul dot_S4096x256_S256x256_S4096x256_1_0_0_1_n_n none tbl (onehot iv wv) (constant (F := Ideal) S4096x256 .f32 0x00000000#32) (ix2 r n)
      = tbl (ix2 r (⟨(iv (ix1 n)).toNat / 128, by omega⟩ : Fin 256)) * wv (ix1 n) := by
  rw [prod_apply, Finset.sum_eq_single (⟨(iv (ix1 n)).toNat / 128, by omega⟩ : Fin 256)]
  · rw [onehot_apply iv wv _ n hI, if_pos rfl]
  · intro k _ hk
    rw [onehot_apply iv wv k n hI, if_neg (fun he => hk (Fin.ext he)), mul_zero]
  · intro hn
    exact absurd (Finset.mem_univ _) hn

/-! ## The sum over the 128 candidates -/

/-- The index the reduction inserts: (f, l, n). -/
theorem lift_eq (f : Fin 32) (l : Fin 128) (n : Fin 256) :
    reduces_S32x128x256_S32x256.lift (ix2 f n) l = ix3 f l n := by
  funext a
  match a with
  | ⟨0, _⟩ => rfl
  | ⟨1, _⟩ => rfl
  | ⟨2, _⟩ => rfl

/-- The sum over axis 1 of a [32, 128, 256] array at (f, n). -/
theorem sum_lo_apply (x : FVec Ideal S32x128x256 .f32) (f : Fin 32) (n : Fin 256) :
    multiReduction (F := Ideal) .add [1] S32x256 x 0x00000000#32 reduces_S32x128x256_S32x256 (.inl rfl) rfl (ix2 f n)
      = ∑ l : Fin 128, x (ix3 f l n) := by
  refine (Ideal.multiReduction_add_single x _ reduces_S32x128x256_S32x256 (.inl rfl) rfl (ix2 f n)).trans ?_
  exact Finset.sum_congr rfl fun l _ => congrArg x (lift_eq f l n)

/-! ## A round at an element -/

/-- For a row of index words whose word at n has the value I below 32768: the round's value at (f, n) is the table entry in
    row f·128 + I % 128 and column I / 128 times the weight at n. The sum over the 128 candidates keeps the one at I % 128. -/
theorem round_apply (tbl : FVec Ideal S4096x256 .bf16) (iv : IVec S256 32) (wv : FVec Ideal S256 .f32) (f : Fin 32) (n : Fin 256)
    (I : ℕ) (hiv : (iv (ix1 n)).toNat = I) (hI : I < 32768) :
    multiReduction (F := Ideal) .add [1] S32x256
        (mulf
          (shapeCast S32x128x256
            (matmul dot_S4096x256_S256x256_S4096x256_1_0_0_1_n_n none tbl (onehot iv wv) (constant (F := Ideal) S4096x256 .f32 0x00000000#32))
            shapeCasts_S4096x256_S32x128x256)
          (mask iv))
        0x00000000#32 reduces_S32x128x256_S32x256 (.inl rfl) rfl (ix2 f n)
      = tbl (ix2 (Cert.Spec.rowAt f I) (Cert.Spec.colAt I)) * wv (ix1 n) := by
  subst hiv
  rw [sum_lo_apply, Finset.sum_eq_single (⟨(iv (ix1 n)).toNat % 128, Nat.mod_lt _ (by decide)⟩ : Fin 128)]
  · rw [mulf_apply, split_apply, prod_onehot_apply tbl iv wv _ n hI, mask_apply, if_pos rfl, mul_one]
    have hc : (⟨(iv (ix1 n)).toNat / 128, by omega⟩ : Fin 256) = Cert.Spec.colAt (iv (ix1 n)).toNat :=
      Fin.ext (Cert.Spec.colAt_val_of_lt hI).symm
    rw [hc]
    rfl
  · intro l _ hl
    rw [mulf_apply, mask_apply, if_neg (fun he => hl (Fin.ext he)), mul_zero]
  · intro hn
    exact absurd (Finset.mem_univ _) hn

theorem pick_apply (s : Fin 8) (off : Fin S8x256.rank → Nat) (hs : S8x256.Slices off S1x256) (hoff : off = ![s.val, 0])
    (tbl : FVec Ideal S4096x256 .bf16) (idx : IVec S8x256 32) (wt : FVec Ideal S8x256 .f32) (f : Fin 32) (n : Fin 256)
    (hI : (idx (ix2 s n)).toNat < 32768) :
    pick (F := Ideal) off hs tbl idx wt (ix2 f n)
      = tbl (ix2 (Cert.Spec.rowAt f (idx (ix2 s n)).toNat) (Cert.Spec.colAt (idx (ix2 s n)).toNat)) * wt (ix2 s n) := by
  subst hoff
  rw [pick_eq]
  refine (round_apply tbl _ _ f n (idx (ix2 s n)).toNat (congrArg BitVec.toNat (rowOf_apply s hs idx n)) hI).trans ?_
  rw [rowOf_apply s hs wt n]

theorem total_apply (tbl : FVec Ideal S4096x256 .bf16) (idx : IVec S8x256 32) (wt : FVec Ideal S8x256 .f32) (f : Fin 32) (n : Fin 256)
    (hI : ∀ s : Fin 8, (idx (ix2 s n)).toNat < 32768) :
    total (F := Ideal) tbl idx wt (ix2 f n)
      = ∑ s : Fin 8, tbl (ix2 (Cert.Spec.rowAt f (idx (ix2 s n)).toNat) (Cert.Spec.colAt (idx (ix2 s n)).toNat)) * wt (ix2 s n) := by
  have h0 := pick_apply (0 : Fin 8) ![0, 0] slices_S8x256_o0_0_S1x256 rfl tbl idx wt f n (hI 0)
  have h1 := pick_apply (1 : Fin 8) ![1, 0] slices_S8x256_o1_0_S1x256 rfl tbl idx wt f n (hI 1)
  have h2 := pick_apply (2 : Fin 8) ![2, 0] slices_S8x256_o2_0_S1x256 rfl tbl idx wt f n (hI 2)
  have h3 := pick_apply (3 : Fin 8) ![3, 0] slices_S8x256_o3_0_S1x256 rfl tbl idx wt f n (hI 3)
  have h4 := pick_apply (4 : Fin 8) ![4, 0] slices_S8x256_o4_0_S1x256 rfl tbl idx wt f n (hI 4)
  have h5 := pick_apply (5 : Fin 8) ![5, 0] slices_S8x256_o5_0_S1x256 rfl tbl idx wt f n (hI 5)
  have h6 := pick_apply (6 : Fin 8) ![6, 0] slices_S8x256_o6_0_S1x256 rfl tbl idx wt f n (hI 6)
  have h7 := pick_apply (7 : Fin 8) ![7, 0] slices_S8x256_o7_0_S1x256 rfl tbl idx wt f n (hI 7)
  unfold total
  rw [addf_apply, addf_apply, addf_apply, addf_apply, addf_apply, addf_apply, addf_apply, addf_apply,
    h0, h1, h2, h3, h4, h5, h6, h7, broadcast_apply]
  have hz : (Scalar.ofBits (F := Ideal) .f32 0x00000000#32) = 0 := Ideal.ofBits_zero_f32
  rw [hz, zero_add, Fin.sum_univ_eight]

end Cert.KernelIdeal.Body

end
-- ==== Proof.HostPrefix.lean ====
/-
  What the pallas_call finds in its three input arrays, as functions of the program's arguments.
  The table array [16, 4096, 256] is the feature array reshaped to z[b, h, f, p] (p the flattened position, 32768 of them), cut
  into p = hi·128 + lo, transposed to (b·4 + h, f, lo, hi) and flattened to rows f·128 + lo and columns hi: entry (bh, r, hi) is
  z[bh / 4, bh % 4, r / 128, hi·128 + r % 128]. The index array [16, 8, 32768] is the index words clamped into [0, 32767] and
  regrouped by (b·4 + h, s, n); a word already in that range is unchanged by the clamp. The weight array is the weights
  regrouped the same way.
-/
import proofs.«418057_j60662118088797_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.StableHlo.Predicate

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The feature array reshaped to the table z[b, h, f, p]. -/
def zOf (x2 : (⟨S4x128x32x32x32, .f32⟩ : BufTy).Contents (Elt F)) : (⟨S4x4x32x32768, .f32⟩ : BufTy).Contents (Elt F) :=
  shapeCast S4x4x32x32768 x2 shapeCasts_S4x128x32x32x32_S4x4x32x32768

/-- The table relaid for the kernel: rows f·128 + lo, columns hi. -/
def relay (z : (⟨S4x4x32x32768, .f32⟩ : BufTy).Contents (Elt F)) : (⟨S16x4096x256, .bf16⟩ : BufTy).Contents (Elt F) :=
  truncf .bf16 (shapeCast S16x4096x256 (transpose S16x32x128x256 [0, 1, 3, 2]
    (shapeCast S16x32x256x128 z shapeCasts_S4x4x32x32768_S16x32x256x128)
    transposes_S16x32x256x128_S16x32x128x256_0_1_3_2) shapeCasts_S16x32x128x256_S16x4096x256) bitsLt_bf16_f32

/-- The index words clamped into [0, 32767]. -/
def clip (x1 : (⟨S4x4x8x32768, .i32⟩ : BufTy).Contents (Elt F)) : (⟨S4x4x8x32768, .i32⟩ : BufTy).Contents (Elt F) :=
  minsi (broadcastInDim S4x4x8x32768 ![] bcast_S_S4x4x8x32768 (constantI S_ 32 32767#32))
    (maxsi (broadcastInDim S4x4x8x32768 ![] bcast_S_S4x4x8x32768 (constantI S_ 32 0#32)) x1)

/-- A [4, 4, 8, 32768] array regrouped as [16, 8, 32768]. -/
def regroup {e : EltTy} (x : (⟨S4x4x8x32768, e⟩ : BufTy).Contents (Elt F)) : (⟨S16x8x32768, e⟩ : BufTy).Contents (Elt F) :=
  shapeCast S16x8x32768 x shapeCasts_S4x4x8x32768_S16x8x32768

theorem V_table (c : Dev nD) :
    (V m c main_v7 : (⟨S16x4096x256, .bf16⟩ : BufTy).Contents (Elt F)) = relay (zOf (m ((c : Thread nD τ).loc main_arg2))) := by
  dsimp only [V, V0]
  simp only [hostOps0, hostOps0_1, hostOps0_2, List.flatten_cons, List.flatten_nil, List.append_nil, List.cons_append, List.nil_append]
  after_results
  rfl

theorem V_weights (c : Dev nD) :
    (V m c main_v2 : (⟨S16x8x32768, .f32⟩ : BufTy).Contents (Elt F)) = regroup (m ((c : Thread nD τ).loc main_arg0)) := by
  dsimp only [V, V0]
  simp only [hostOps0, hostOps0_1, hostOps0_2, List.flatten_cons, List.flatten_nil, List.append_nil, List.cons_append, List.nil_append]
  after_results
  rfl

theorem V_indices (c : Dev nD) :
    (V m c main_v1 : (⟨S16x8x32768, .i32⟩ : BufTy).Contents (Elt F)) = regroup (clip (m ((c : Thread nD τ).loc main_arg1))) := by
  dsimp only [V, V0]
  simp only [hostOps0, hostOps0_1, hostOps0_2, List.flatten_cons, List.flatten_nil, List.append_nil, List.cons_append, List.nil_append]
  after_results
  simp only [cast_cast, cast_eq]
  rfl

/-! ## The three arrays read at an index -/

/-- (b·4 + h) back to b and h. -/
def bOf (bh : Fin 16) : Fin 4 := ⟨bh.val / 4, by have := bh.isLt; omega⟩
def hOf (bh : Fin 16) : Fin 4 := ⟨bh.val % 4, Nat.mod_lt _ (by decide)⟩
/-- Row r = f·128 + lo back to f. -/
def fOf (r : Fin 4096) : Fin 32 := ⟨r.val / 128, by have := r.isLt; omega⟩
/-- The table position of row r, column hi: hi·128 + lo. -/
def pOf (r : Fin 4096) (hi : Fin 256) : Fin 32768 := ⟨hi.val * 128 + r.val % 128, by have := hi.isLt; have := Nat.mod_lt r.val (by decide : 0 < 128); omega⟩

theorem regroup_apply {e : EltTy} (x : (⟨S4x4x8x32768, e⟩ : BufTy).Contents (Elt F)) (bh : Fin 16) (s : Fin 8) (n : Fin 32768) :
    regroup x (ix3 bh s n) = x (ix4 (bOf bh) (hOf bh) s n) := by
  unfold regroup
  refine shapeCast_apply x shapeCasts_S4x4x8x32768_S16x8x32768 (ix3 bh s n) (ix4 (bOf bh) (hOf bh) s n) ?_
  rewrite [Shape.rowMajor_val_four, Shape.rowMajor_val_three]
  show ((bh.val / 4 * 4 + bh.val % 4) * 8 + s.val) * 32768 + n.val = (bh.val * 8 + s.val) * 32768 + n.val
  omega

/-- A word in [0, 32767] is its own clamp. -/
theorem clip_word (a : BitVec 32) (h : a.toNat < 32768) : IntOp.minsi 32767#32 (IntOp.maxsi 0#32 a) = a := by
  have hti : a.toInt = a.toNat := StableHlo.Predicate.toInt_eq_toNat_of_lt (by omega)
  have h0 : (0#32 : BitVec 32).toInt = 0 := by decide
  have hm : (32767#32 : BitVec 32).toInt = 32767 := by decide
  have hmax : IntOp.maxsi 0#32 a = a := by
    unfold IntOp.maxsi
    rw [if_neg]
    simp only [BitVec.slt, hti, h0, decide_eq_true_eq]; omega
  rw [hmax]
  unfold IntOp.minsi
  rw [if_neg]
  simp only [BitVec.slt, hti, hm, decide_eq_true_eq]; omega

theorem clip_apply (x1 : (⟨S4x4x8x32768, .i32⟩ : BufTy).Contents (Elt F)) (j : S4x4x8x32768.Idx) (h : (x1 j).toNat < 32768) :
    clip x1 j = x1 j := by
  have e0 : broadcastInDim S4x4x8x32768 ![] bcast_S_S4x4x8x32768 (constantI S_ 32 0#32) j = 0#32 :=
    StableHlo.Predicate.bcast_scalar _ (by decide) _ j
  have e1 : broadcastInDim S4x4x8x32768 ![] bcast_S_S4x4x8x32768 (constantI S_ 32 32767#32) j = 32767#32 :=
    StableHlo.Predicate.bcast_scalar _ (by decide) _ j
  show IntOp.minsi (broadcastInDim S4x4x8x32768 ![] bcast_S_S4x4x8x32768 (constantI S_ 32 32767#32) j)
    (IntOp.maxsi (broadcastInDim S4x4x8x32768 ![] bcast_S_S4x4x8x32768 (constantI S_ 32 0#32) j) (x1 j)) = x1 j
  rw [e0, e1]
  exact clip_word _ h

theorem relay_apply (z : (⟨S4x4x32x32768, .f32⟩ : BufTy).Contents (Elt Ideal)) (bh : Fin 16) (r : Fin 4096) (hi : Fin 256) :
    relay (F := Ideal) z (ix3 bh r hi) = z (ix4 (bOf bh) (hOf bh) (fOf r) (pOf r hi)) := by
  unfold relay
  refine (truncf_apply _ bitsLt_bf16_f32 (ix3 bh r hi)).trans ?_
  refine (shapeCast_apply _ shapeCasts_S16x32x128x256_S16x4096x256 (ix3 bh r hi)
    (ix4 bh (fOf r) (⟨r.val % 128, Nat.mod_lt _ (by decide)⟩ : Fin 128) hi) ?_).trans ?_
  · rewrite [Shape.rowMajor_val_four, Shape.rowMajor_val_three]
    show ((bh.val * 32 + r.val / 128) * 128 + r.val % 128) * 256 + hi.val = (bh.val * 4096 + r.val) * 256 + hi.val
    omega
  refine (transpose_apply [0, 1, 3, 2] _ transposes_S16x32x256x128_S16x32x128x256_0_1_3_2
    (ix4 bh (fOf r) (⟨r.val % 128, Nat.mod_lt _ (by decide)⟩ : Fin 128) hi)
    (ix4 bh (fOf r) hi (⟨r.val % 128, Nat.mod_lt _ (by decide)⟩ : Fin 128)) ?_).trans ?_
  · intro b
    match b with
    | ⟨0, _⟩ => rfl
    | ⟨1, _⟩ => rfl
    | ⟨2, _⟩ => rfl
    | ⟨3, _⟩ => rfl
  refine shapeCast_apply z shapeCasts_S4x4x32x32768_S16x32x256x128 _ (ix4 (bOf bh) (hOf bh) (fOf r) (pOf r hi)) ?_
  rewrite [Shape.rowMajor_val_four, Shape.rowMajor_val_four]
  show ((bh.val / 4 * 4 + bh.val % 4) * 32 + r.val / 128) * 32768 + (hi.val * 128 + r.val % 128)
    = ((bh.val * 32 + r.val / 128) * 256 + hi.val) * 128 + r.val % 128
  omega

end Cert.KernelIdeal.Host

end
-- ==== Proof.GridFacts.lean ====
/-
  The grid of the pallas_call: 16 × 128 points, numbered t = bh·128 + ni. Each window's block index at point t, read off the
  printed index maps: on the first axis every window is at block t / 128; on the last axis the index, weight and output windows
  are at block t % 128 and the table window at block 0; on the middle axis every window is at block 0.
-/
import proofs.«418057_j60662118088797_3_alg».proof.Proof.Gen.KernelIdeal.Frame

-- one decision over the 2048 points at a time
set_option Elab.async false

namespace Cert.KernelIdeal.Blocks

open Cert.KernelIdeal Cert.KernelIdeal.Gen
open Idealize.ShloMosaic

theorem idx_tbl : ∀ t : Fin cfg0.N,
    win0_0.index t (0 : Fin 3) = t.val / 128 ∧ win0_0.index t (1 : Fin 3) = 0 ∧ win0_0.index t (2 : Fin 3) = 0 :=
  (by decide +kernel : ∀ t : Fin grid0.N, _)

theorem idx_idx : ∀ t : Fin cfg0.N,
    win0_1.index t (0 : Fin 3) = t.val / 128 ∧ win0_1.index t (1 : Fin 3) = 0 ∧ win0_1.index t (2 : Fin 3) = t.val % 128 :=
  (by decide +kernel : ∀ t : Fin grid0.N, _)

theorem idx_w : ∀ t : Fin cfg0.N,
    win0_2.index t (0 : Fin 3) = t.val / 128 ∧ win0_2.index t (1 : Fin 3) = 0 ∧ win0_2.index t (2 : Fin 3) = t.val % 128 :=
  (by decide +kernel : ∀ t : Fin grid0.N, _)

theorem idx_out : ∀ t : Fin cfg0.N,
    win0_3.index t (0 : Fin 3) = t.val / 128 ∧ win0_3.index t (1 : Fin 3) = 0 ∧ win0_3.index t (2 : Fin 3) = t.val % 128 :=
  (by decide +kernel : ∀ t : Fin grid0.N, _)

theorem N_lt (t : Fin cfg0.N) : t.val < 2048 := Nat.lt_of_lt_of_eq t.isLt (N_0 : cfg0.N = 2048)

/-- Point t's (b·4 + h), -/
def bhOf (t : Fin cfg0.N) : Fin 16 := ⟨t.val / 128, by have := N_lt t; omega⟩
/-- and the array column of its block column n'. -/
def nOf (t : Fin cfg0.N) (n : Fin 256) : Fin 32768 := ⟨t.val % 128 * 256 + n.val, by have := n.isLt; have := Nat.mod_lt t.val (by decide : 0 < 128); omega⟩

end Cert.KernelIdeal.Blocks
-- ==== Proof.Blocks.lean ====
/-
  From the grid points' blocks to the whole output array. The grid has 16 × 128 points t = (bh, ni); point t reads the whole
  table of (b, h) = (bh / 4, bh % 4), the eight rows of index words and of weights for the 256 columns n = ni·256 + n', and writes
  rows f and those 256 columns of the output array [16, 32, 32768]. With every index word in [0, 32767] the body's eight rounds
  leave at (f, n') the sum over the corners s of table[f·128 + I % 128, I / 128] · w[s, n'] (I the index word of (s, n')), which
  by the table's layout is z[b, h, f, I] · w[b, h, s, n]: the specification at (b, h, f, n). The 2048 output blocks tile the
  array, so the array ends holding the specification everywhere.
-/
import proofs.«418057_j60662118088797_3_alg».proof.Proof.PickAt
import proofs.«418057_j60662118088797_3_alg».proof.Proof.HostPrefix
import proofs.«418057_j60662118088797_3_alg».proof.Proof.GridFacts
import Idealize.ShloMosaic.Lib.ValueLayout

set_option maxRecDepth 16384

noncomputable section

namespace Cert.KernelIdeal.Blocks

open Cert.KernelIdeal Cert.KernelIdeal.Gen Cert.KernelIdeal.Body Cert.KernelIdeal.Host
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The weights, the index words and the table, as the program's arguments give them. -/
abbrev wArg (c : Dev nD) : (⟨S4x4x8x32768, .f32⟩ : BufTy).Contents (Elt Ideal) := m ((c : Thread nD τ).loc main_arg0)
abbrev iArg (c : Dev nD) : (⟨S4x4x8x32768, .i32⟩ : BufTy).Contents (Elt Ideal) := m ((c : Thread nD τ).loc main_arg1)
abbrev zArg (c : Dev nD) : (⟨S4x4x32x32768, .f32⟩ : BufTy).Contents (Elt Ideal) := zOf (m ((c : Thread nD τ).loc main_arg2))

/-- The output array's entry (bh, f, n): the specification at (bh / 4, bh % 4, f, n). -/
def outAt (c : Dev nD) (bh : Fin 16) (f : Fin 32) (n : Fin 32768) : EReal :=
  Cert.Spec.mixAt (wArg m c) (iArg m c) (zArg m c) (bOf bh) (hOf bh) f n

def outArr (c : Dev nD) : (⟨S16x32x32768, .f32⟩ : BufTy).Contents (Elt Ideal) := fun j => outAt m c (j 0) (j 1) (j 2)

/-! ## The three input arrays at an index, from the arguments -/

theorem arr_tbl (c : Dev nD) (bh : Fin 16) (r : Fin 4096) (hi : Fin 256) :
    V m c (Pipeline.arrRef spec0 0) (ix3 bh r hi) = zArg m c (ix4 (bOf bh) (hOf bh) (fOf r) (pOf r hi)) :=
  (congrFun (V_table m c) (ix3 bh r hi)).trans (relay_apply _ bh r hi)

theorem arr_w (c : Dev nD) (bh : Fin 16) (s : Fin 8) (n : Fin 32768) :
    V m c (Pipeline.arrRef spec0 2) (ix3 bh s n) = wArg m c (ix4 (bOf bh) (hOf bh) s n) :=
  (congrFun (V_weights m c) (ix3 bh s n)).trans (regroup_apply _ bh s n)

theorem arr_idx (c : Dev nD) (hr : ∀ j : S4x4x8x32768.Idx, (iArg m c j).toNat < 32768) (bh : Fin 16) (s : Fin 8) (n : Fin 32768) :
    V m c (Pipeline.arrRef spec0 1) (ix3 bh s n) = iArg m c (ix4 (bOf bh) (hOf bh) s n) :=
  ((congrFun (V_indices m c) (ix3 bh s n)).trans (regroup_apply _ bh s n)).trans (clip_apply _ _ (hr _))

/-! ## The grid: which blocks point t reads and writes -/

/-- A block of the table window, read through any contents A of its array. -/
theorem read_tbl (c : Dev nD) (t : Fin cfg0.N) (A : Buf (Elt Ideal) ((c : Thread nD τ).loc (Pipeline.arrRef spec0 0))) (r : Fin 4096) (hi : Fin 256) :
    ((cfg0.win 0).blk t).view.read (Elt Ideal) A (ix3 (0 : Fin 1) r hi) = A (ix3 (bhOf t) r hi) := by
  show A (((cfg0.win 0).blk t).view.emb (ix3 (0 : Fin 1) r hi)) = A (ix3 (bhOf t) r hi)
  refine congrArg A (funext fun a => Fin.ext ?_)
  obtain ⟨e0, e1, e2⟩ := idx_tbl t
  match a with
  | ⟨0, _⟩ => show win0_0.index t (0 : Fin 3) * 1 + 1 * (0 : Fin 1).val = t.val / 128; rw [e0]; simp
  | ⟨1, _⟩ => show win0_0.index t (1 : Fin 3) * 4096 + 1 * r.val = r.val; rw [e1]; omega
  | ⟨2, _⟩ => show win0_0.index t (2 : Fin 3) * 256 + 1 * hi.val = hi.val; rw [e2]; omega

theorem read_idx (c : Dev nD) (t : Fin cfg0.N) (A : Buf (Elt Ideal) ((c : Thread nD τ).loc (Pipeline.arrRef spec0 1))) (s : Fin 8) (n : Fin 256) :
    ((cfg0.win 1).blk t).view.read (Elt Ideal) A (ix3 (0 : Fin 1) s n) = A (ix3 (bhOf t) s (nOf t n)) := by
  show A (((cfg0.win 1).blk t).view.emb (ix3 (0 : Fin 1) s n)) = A (ix3 (bhOf t) s (nOf t n))
  refine congrArg A (funext fun a => Fin.ext ?_)
  obtain ⟨e0, e1, e2⟩ := idx_idx t
  match a with
  | ⟨0, _⟩ => show win0_1.index t (0 : Fin 3) * 1 + 1 * (0 : Fin 1).val = t.val / 128; rw [e0]; simp
  | ⟨1, _⟩ => show win0_1.index t (1 : Fin 3) * 8 + 1 * s.val = s.val; rw [e1]; omega
  | ⟨2, _⟩ => show win0_1.index t (2 : Fin 3) * 256 + 1 * n.val = t.val % 128 * 256 + n.val; rw [e2]; omega

theorem read_w (c : Dev nD) (t : Fin cfg0.N) (A : Buf (Elt Ideal) ((c : Thread nD τ).loc (Pipeline.arrRef spec0 2))) (s : Fin 8) (n : Fin 256) :
    ((cfg0.win 2).blk t).view.read (Elt Ideal) A (ix3 (0 : Fin 1) s n) = A (ix3 (bhOf t) s (nOf t n)) := by
  show A (((cfg0.win 2).blk t).view.emb (ix3 (0 : Fin 1) s n)) = A (ix3 (bhOf t) s (nOf t n))
  refine congrArg A (funext fun a => Fin.ext ?_)
  obtain ⟨e0, e1, e2⟩ := idx_w t
  match a with
  | ⟨0, _⟩ => show win0_2.index t (0 : Fin 3) * 1 + 1 * (0 : Fin 1).val = t.val / 128; rw [e0]; simp
  | ⟨1, _⟩ => show win0_2.index t (1 : Fin 3) * 8 + 1 * s.val = s.val; rw [e1]; omega
  | ⟨2, _⟩ => show win0_2.index t (2 : Fin 3) * 256 + 1 * n.val = t.val % 128 * 256 + n.val; rw [e2]; omega

theorem blk_tbl (c : Dev nD) (t : Fin cfg0.N) (r : Fin 4096) (hi : Fin 256) :
    iblk m c 0 t (ix3 (0 : Fin 1) r hi) = V m c (Pipeline.arrRef spec0 0) (ix3 (bhOf t) r hi) := by
  unfold iblk
  exact read_tbl c t (V m c (Pipeline.arrRef spec0 0)) r hi

theorem blk_idx (c : Dev nD) (t : Fin cfg0.N) (s : Fin 8) (n : Fin 256) :
    iblk m c 1 t (ix3 (0 : Fin 1) s n) = V m c (Pipeline.arrRef spec0 1) (ix3 (bhOf t) s (nOf t n)) := by
  unfold iblk
  exact read_idx c t (V m c (Pipeline.arrRef spec0 1)) s n

theorem blk_w (c : Dev nD) (t : Fin cfg0.N) (s : Fin 8) (n : Fin 256) :
    iblk m c 2 t (ix3 (0 : Fin 1) s n) = V m c (Pipeline.arrRef spec0 2) (ix3 (bhOf t) s (nOf t n)) := by
  unfold iblk
  exact read_w c t (V m c (Pipeline.arrRef spec0 2)) s n

theorem blk_out (t : Fin cfg0.N) (f : Fin 32) (n : Fin 256) :
    ((cfg0.win 3).blk t).view.emb (ix3 (0 : Fin 1) f n) = ix3 (bhOf t) f (nOf t n) := by
  refine funext fun a => Fin.ext ?_
  obtain ⟨e0, e1, e2⟩ := idx_out t
  match a with
  | ⟨0, _⟩ => show win0_3.index t (0 : Fin 3) * 1 + 1 * (0 : Fin 1).val = t.val / 128; rw [e0]; simp
  | ⟨1, _⟩ => show win0_3.index t (1 : Fin 3) * 32 + 1 * f.val = f.val; rw [e1]; omega
  | ⟨2, _⟩ => show win0_3.index t (2 : Fin 3) * 256 + 1 * n.val = t.val % 128 * 256 + n.val; rw [e2]; omega

/-! ## What the body leaves at (f, n') of its output block, over any three input blocks -/

theorem block_value (x0 : Vec Ideal S1x4096x256 .bf16) (x1 : Vec Ideal S1x8x256 .i32) (x2 : Vec Ideal S1x8x256 .f32) (f : Fin 32) (n : Fin 256)
    (hI : ∀ s : Fin 8, (x1 (ix3 (0 : Fin 1) s n)).toNat < 32768) :
    shapeCast S1x32x256 (total (F := Ideal) (k0_pay3 x0) (k0_pay4 x1) (k0_pay5 x2)) shapeCasts_S32x256_S1x32x256 (ix3 (0 : Fin 1) f n)
      = ∑ s : Fin 8, x0 (ix3 (0 : Fin 1) (Cert.Spec.rowAt f (x1 (ix3 (0 : Fin 1) s n)).toNat) (Cert.Spec.colAt (x1 (ix3 (0 : Fin 1) s n)).toNat))
          * x2 (ix3 (0 : Fin 1) s n) := by
  have e3 : ∀ (r : Fin 4096) (hi : Fin 256), k0_pay3 x0 (ix2 r hi) = x0 (ix3 (0 : Fin 1) r hi) :=
    fun r hi => shapeCast_1ab_ab_apply x0 shapeCasts_S1x4096x256_S4096x256 r hi
  have e4 : ∀ (s : Fin 8) (k : Fin 256), k0_pay4 x1 (ix2 s k) = x1 (ix3 (0 : Fin 1) s k) :=
    fun s k => shapeCast_1ab_ab_apply x1 shapeCasts_S1x8x256_S8x256 s k
  have e5 : ∀ (s : Fin 8) (k : Fin 256), k0_pay5 x2 (ix2 s k) = x2 (ix3 (0 : Fin 1) s k) :=
    fun s k => shapeCast_1ab_ab_apply x2 shapeCasts_S1x8x256_S8x256 s k
  refine (shapeCast_ab_1ab_apply _ shapeCasts_S32x256_S1x32x256 (0 : Fin 1) f n).trans ?_
  refine (total_apply (k0_pay3 x0) (k0_pay4 x1) (k0_pay5 x2) f n (fun s => by rw [e4]; exact hI s)).trans ?_
  refine Finset.sum_congr rfl fun s _ => ?_
  rw [e4, e3, e5]

/-! ## Point t writes back block t of the specification -/

theorem flushed_eq (c : Dev nD) (hr : ∀ j : S4x4x8x32768.Idx, (iArg m c j).toNat < 32768) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold outsAt0
  rw [out_eq]
  refine funext fun (y : S1x32x256.Idx) => ?_
  obtain ⟨f, n, rfl⟩ : ∃ (f : Fin 32) (n : Fin 256), y = ix3 (0 : Fin 1) f n := by
    have h := (y 0).isLt
    change (y 0).val < 1 at h
    have h0 : y 0 = (0 : Fin 1) := Fin.ext (by show (y 0).val = 0; omega)
    exact ⟨y 1, y 2, (eq_ix3 y).trans (congrArg (fun a => ix3 a (y 1) (y 2)) h0)⟩
  show shapeCast S1x32x256 (total (F := Ideal) (k0_pay3 (iblk m c 0 t)) (k0_pay4 (iblk m c 1 t)) (k0_pay5 (iblk m c 2 t))) shapeCasts_S32x256_S1x32x256 (ix3 (0 : Fin 1) f n)
    = outArr m c (((cfg0.win 3).blk t).view.emb (ix3 (0 : Fin 1) f n))
  have hI : ∀ s : Fin 8, (iblk m c 1 t (ix3 (0 : Fin 1) s n)).toNat < 32768 := fun s => by
    rw [blk_idx, arr_idx m c hr]; exact hr _
  refine (block_value (iblk m c 0 t) (iblk m c 1 t) (iblk m c 2 t) f n hI).trans ?_
  rw [blk_out]
  show _ = Cert.Spec.mixAt (wArg m c) (iArg m c) (zArg m c) (bOf (bhOf t)) (hOf (bhOf t)) f (nOf t n)
  unfold Cert.Spec.mixAt
  refine Finset.sum_congr rfl fun s _ => ?_
  rw [blk_idx, arr_idx m c hr, blk_w, arr_w, blk_tbl, arr_tbl]
  have hlt := hr (ix4 (bOf (bhOf t)) (hOf (bhOf t)) s (nOf t n))
  have ef : fOf (Cert.Spec.rowAt f (iArg m c (ix4 (bOf (bhOf t)) (hOf (bhOf t)) s (nOf t n))).toNat) = f := by
    apply Fin.ext
    show (f.val * 128 + (iArg m c (ix4 (bOf (bhOf t)) (hOf (bhOf t)) s (nOf t n))).toNat % 128) / 128 = f.val
    omega
  have ep : pOf (Cert.Spec.rowAt f (iArg m c (ix4 (bOf (bhOf t)) (hOf (bhOf t)) s (nOf t n))).toNat)
      (Cert.Spec.colAt (iArg m c (ix4 (bOf (bhOf t)) (hOf (bhOf t)) s (nOf t n))).toNat)
      = Cert.Spec.pos (iArg m c (ix4 (bOf (bhOf t)) (hOf (bhOf t)) s (nOf t n))) := by
    apply Fin.ext
    show (iArg m c (ix4 (bOf (bhOf t)) (hOf (bhOf t)) s (nOf t n))).toNat / 128 % 256 * 128
        + (f.val * 128 + (iArg m c (ix4 (bOf (bhOf t)) (hOf (bhOf t)) s (nOf t n))).toNat % 128) % 128
      = (iArg m c (ix4 (bOf (bhOf t)) (hOf (bhOf t)) s (nOf t n))).toNat % 32768
    omega
  rw [ef, ep]

/-! ## The output blocks tile the array -/

theorem mem_blk (t : Fin cfg0.N) (i : S16x32x32768.Idx) :
    i ∈ ((cfg0.win 3).blk t).view.set ↔ ∀ a : Fin 3, win0_3.index t a * S1x32x256.size a ≤ (i a).val ∧ (i a).val < win0_3.index t a * S1x32x256.size a + S1x32x256.size a := by
  show i ∈ ((View.whole main_v8).slice (win0_3.rect t)).set ↔ _
  rw [View.set_slice_whole, Rect.mem_set_unit]
  exact Iff.rfl

theorem cover (i : S16x32x32768.Idx) : ∃ t : Fin cfg0.N, (cfg0.win 3).flush t = true ∧ i ∈ ((cfg0.win 3).blk t).view.set := by
  have h0 : (i 0).val < 16 := (i 0).isLt
  have h1 : (i 1).val < 32 := (i 1).isLt
  have h2 : (i 2).val < 32768 := (i 2).isLt
  let t : Fin cfg0.N := ⟨(i 0).val * 128 + (i 2).val / 256, Nat.lt_of_lt_of_eq (by omega : (i 0).val * 128 + (i 2).val / 256 < 2048) (N_0 : cfg0.N = 2048).symm⟩
  have ht : t.val = (i 0).val * 128 + (i 2).val / 256 := rfl
  refine ⟨t, flush0_3 t, ?_⟩
  rw [mem_blk]
  obtain ⟨e0, e1, e2⟩ := idx_out t
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 32 ≤ (i 1).val ∧ (i 1).val < win0_3.index t (1 : Fin 3) * 32 + 32; rw [e1]; omega
  | ⟨2, _⟩ => show win0_3.index t (2 : Fin 3) * 256 ≤ (i 2).val ∧ (i 2).val < win0_3.index t (2 : Fin 3) * 256 + 256; rw [e2, ht]; omega

/-- The output array after the region. -/
theorem final (c : Dev nD) (hr : ∀ j : S4x4x8x32768.Idx, (iArg m c j).toNat < 32768) :
    (dats m 0 c).arrAt 3 cfg0.N = outArr m c :=
  (dats m 0 c).arrAt_eq_of_cover 3 (outArr m c) (fun t _ => flushed_eq m c hr t) cover

end Cert.KernelIdeal.Blocks

end
-- ==== Proof.KernelRun.lean ====
/-
  The kernel program's run, read at its result. After the region two reshapes take the output array [16, 32, 32768] to
  [4, 4, 32, 32768] and then to [4, 128, 32768]. Regrouping (b·4 + h, f, n) as (b, h, f, n) turns the output array into the
  specification `mix` of the arguments; the last reshape is the one the reference ends with too, so it is carried unopened.
-/
import proofs.«418057_j60662118088797_3_alg».proof.Proof.Blocks
import Idealize.ShloMosaic.Lib.StableHlo.Run

set_option maxRecDepth 16384

noncomputable section

namespace Cert.KernelIdeal.Run

open Cert.KernelIdeal Cert.KernelIdeal.Gen Cert.KernelIdeal.Host Cert.KernelIdeal.Blocks
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The last reshape, [4, 4, 32, 32768] to [4, 128, 32768]. -/
def lastCast (v : (⟨S4x4x32x32768, .f32⟩ : BufTy).Contents (Elt Ideal)) : (⟨S4x128x32768, .f32⟩ : BufTy).Contents (Elt Ideal) :=
  shapeCast S4x128x32768 v shapeCasts_S4x4x32x32768_S4x128x32768

/-- The output array regrouped by (b, h, f, n) is the specification. -/
theorem out_regroup (c : Dev nD) :
    shapeCast S4x4x32x32768 (outArr m c) shapeCasts_S16x32x32768_S4x4x32x32768 = Cert.Spec.mix (wArg m c) (iArg m c) (zArg m c) := by
  funext i
  obtain ⟨b, h, f, n, rfl⟩ : ∃ (b h : Fin 4) (f : Fin 32) (n : Fin 32768), i = ix4 b h f n := ⟨i 0, i 1, i 2, i 3, eq_ix4 i⟩
  have hb := b.isLt
  have hh := h.isLt
  refine (shapeCast_apply _ shapeCasts_S16x32x32768_S4x4x32x32768 (ix4 b h f n) (ix3 (⟨b.val * 4 + h.val, by omega⟩ : Fin 16) f n) ?_).trans ?_
  · rewrite [Shape.rowMajor_val_three, Shape.rowMajor_val_four]
    rfl
  show outAt m c (⟨b.val * 4 + h.val, by omega⟩ : Fin 16) f n = Cert.Spec.mixAt (wArg m c) (iArg m c) (zArg m c) b h f n
  unfold outAt
  have eb : bOf (⟨b.val * 4 + h.val, by omega⟩ : Fin 16) = b := Fin.ext (by show (b.val * 4 + h.val) / 4 = b.val; omega)
  have eh : hOf (⟨b.val * 4 + h.val, by omega⟩ : Fin 16) = h := Fin.ext (by show (b.val * 4 + h.val) % 4 = h.val; omega)
  rw [eb, eh]

/-- What the lines after the region leave in the result buffer. -/
theorem result (c : Dev nD) (hr : ∀ j : S4x4x8x32768.Idx, (iArg m c j).toNat < 32768) :
    Pipeline.afterTail₀ cfgs (dats m) 0 (V0 m) [hostOps1] c main_v10
      = lastCast (Cert.Spec.mix (wArg m c) (iArg m c) (zArg m c)) := by
  rw [← out_regroup m c]
  unfold Pipeline.afterTail₀ lastCast
  show StableHlo.after hostOps1 _ (Proc.devRef .tc main_v10) = _
  after_results
  refine congrArg (fun v => shapeCast S4x128x32768 (shapeCast S4x4x32x32768 v shapeCasts_S16x32x32768_S4x4x32x32768) shapeCasts_S4x4x32x32768_S4x128x32768) ?_
  exact (Pipeline.withArrays_arr spec0 launch0.win.arr_inj c _ _ 3).trans (final m c hr)

/-- Every weakly fair execution of the kernel program ends with the result buffer at the specification, reshaped, and the
    arguments unchanged — when every index word is in [0, 32767]. -/
theorem run (hr : ∀ (c : Dev nD) (j : S4x4x8x32768.Idx), (iArg m c j).toNat < 32768) :
    θ_run defs (onTc (τ := τ) (main (F := Ideal))) ⟨m, fun _ => 0, ρ⟩ (fun r => ∀ c : Dev nD,
      r.2.mem ((c.tc : Thread nD τ).loc main_v10) = lastCast (Cert.Spec.mix (wArg m c) (iArg m c) (zArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (result m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefRun.lean ====
/-
  The reference program's run, read back. The reference is a straight line of 32 host operations: it reshapes the feature array to
  the table z[b, h, f, p], lays the index words out along the table's last axis, takes the table entries the index words name
  (jnp's take_along_axis: negative words wrapped once, words still out of range answered by a fill, the rest gathered), multiplies
  by the weights and sums over the eight corners. Every weakly fair execution ends with each buffer at the fold of the
  operations' results over the launch contents; here that fold is read at the result buffer and identified with the composed
  stage `val_main_v9` of the three arguments. The 32 operations are read in four stretches — the index preparation, the range
  test, the gather with its fill, the weighted sum — each stretch over an arbitrary valuation that agrees with the earlier stages
  on the buffers the stretch reads.
-/
import proofs.«418057_j60662118088797_3_alg».proof.Proof.RefRead
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The index preparation: the table, the index words laid along its last axis, a negative word moved up by the extent. -/
abbrev opsA : List (HloOp τ sig (Elt F)) :=
  [ reshape main_arg2 main_v0 rfl shapeCasts_S4x128x32x32x32_S4x4x32x32768,
    reshape main_arg1 main_v1 rfl shapeCasts_S4x4x8x32768_S4x4x1x262144,
    unary main_v1 main_v2 (broadcastInDim S4x4x32x262144 ![0, 1, 2, 3] bcast_S4x4x1x262144_S4x4x32x262144_0_1_2_3 : (⟨S4x4x1x262144, .i32⟩ : BufTy).Contents (Elt F) → (⟨S4x4x32x262144, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x4x32x262144, .i32⟩) main_call0_v0) (broadcastInDim S4x4x32x262144 ![] bcast_S_S4x4x32x262144),
    TRef.binary (TRef.of (T := ⟨S4x4x32x262144, .i32⟩) main_v2) (TRef.of (T := ⟨S4x4x32x262144, .i32⟩) main_call0_v0) (TRef.of (T := ⟨S4x4x32x262144, .i1⟩) main_call0_v1) (cmpi .slt),
    TRef.nullary (TRef.of (T := ⟨S_, .i32⟩) main_call0_c_0) (constantI S_ 32 32768#32),
    TRef.unary (TRef.of (T := ⟨S_, .i32⟩) main_call0_c_0) (TRef.of (T := ⟨S4x4x32x262144, .i32⟩) main_call0_v2) (broadcastInDim S4x4x32x262144 ![] bcast_S_S4x4x32x262144),
    TRef.binary (TRef.of (T := ⟨S4x4x32x262144, .i32⟩) main_v2) (TRef.of (T := ⟨S4x4x32x262144, .i32⟩) main_call0_v2) (TRef.of (T := ⟨S4x4x32x262144, .i32⟩) main_call0_v3) addi,
    TRef.ternary (TRef.of (T := ⟨S4x4x32x262144, .i1⟩) main_call0_v1) (TRef.of (T := ⟨S4x4x32x262144, .i32⟩) main_call0_v3) (TRef.of (T := ⟨S4x4x32x262144, .i32⟩) main_v2) (TRef.of (T := ⟨S4x4x32x262144, .i32⟩) main_call0_v4) select ]

/-- The range test: the prepared word as a one-component start index, and whether it lies in [0, 32767]. -/
abbrev opsB : List (HloOp τ sig (Elt F)) :=
  [ TRef.reshape (TRef.of (T := ⟨S4x4x32x262144, .i32⟩) main_call0_v4) (TRef.of (T := ⟨S4x4x32x262144x1, .i32⟩) main_call0_v5) rfl shapeCasts_S4x4x32x262144_S4x4x32x262144x1,
    TRef.nullary (TRef.of (T := ⟨S1, .i32⟩) main_call0_c_1) (constantI S1 32 32767#32),
    TRef.nullary (TRef.of (T := ⟨S_, .i32⟩) main_call0_c_2) (constantI S_ 32 0#32),
    TRef.unary (TRef.of (T := ⟨S_, .i32⟩) main_call0_c_2) (TRef.of (T := ⟨S4x4x32x262144x1, .i32⟩) main_call0_v6) (broadcastInDim S4x4x32x262144x1 ![] bcast_S_S4x4x32x262144x1),
    TRef.binary (TRef.of (T := ⟨S4x4x32x262144x1, .i32⟩) main_call0_v5) (TRef.of (T := ⟨S4x4x32x262144x1, .i32⟩) main_call0_v6) (TRef.of (T := ⟨S4x4x32x262144x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S4x4x32x262144x1, .i32⟩) main_call0_v9) (broadcastInDim S4x4x32x262144x1 ![0, 1, 2, 3, 4] bcast_S1x1x1x1x1_S4x4x32x262144x1_0_1_2_3_4),
    TRef.binary (TRef.of (T := ⟨S4x4x32x262144x1, .i32⟩) main_call0_v5) (TRef.of (T := ⟨S4x4x32x262144x1, .i32⟩) main_call0_v9) (TRef.of (T := ⟨S4x4x32x262144x1, .i1⟩) main_call0_v10) (cmpi .sle),
    TRef.binary (TRef.of (T := ⟨S4x4x32x262144x1, .i1⟩) main_call0_v7) (TRef.of (T := ⟨S4x4x32x262144x1, .i1⟩) main_call0_v10) (TRef.of (T := ⟨S4x4x32x262144x1, .i1⟩) main_call0_v11) andi,
    TRef.nullary (TRef.of (T := ⟨S_, .i1⟩) main_call0_c_3) (constantI S_ 1 1#1),
    TRef.binary (TRef.of (T := ⟨S4x4x32x262144x1, .i1⟩) main_call0_v11) (TRef.of (T := ⟨S_, .i1⟩) main_call0_c_3) (TRef.of (T := ⟨S4x4x32x262144, .i1⟩) main_call0_v12) (fun x v => Host.reduce IntOp.andi x v reducesTo_S4x4x32x262144x1_S4x4x32x262144_d4 h_S_) ]

/-- The gather, and the fill where the range test failed. -/
abbrev opsC : List (HloOp τ sig (Elt F)) :=
  [ TRef.binary (TRef.of (T := ⟨S4x4x32x32768, .f32⟩) main_v0) (TRef.of (T := ⟨S4x4x32x262144x1, .i32⟩) main_call0_v5) (TRef.of (T := ⟨S4x4x32x262144, .f32⟩) main_call0_v13) (fun x i => Host.gather gather_S4x4x32x32768_S4x4x32x262144x1_S4x4x32x262144_n_3_012_012_3_4_1111 x i),
    TRef.nullary (TRef.of (T := ⟨S_, .f32⟩) main_call0_cst) (constant S_ .f32 0x7FC00000#32),
    TRef.unary (TRef.of (T := ⟨S_, .f32⟩) main_call0_cst) (TRef.of (T := ⟨S4x4x32x262144, .f32⟩) main_call0_v14) (broadcastInDim S4x4x32x262144 ![] bcast_S_S4x4x32x262144),
    TRef.ternary (TRef.of (T := ⟨S4x4x32x262144, .i1⟩) main_call0_v12) (TRef.of (T := ⟨S4x4x32x262144, .f32⟩) main_call0_v13) (TRef.of (T := ⟨S4x4x32x262144, .f32⟩) main_call0_v14) (TRef.of (T := ⟨S4x4x32x262144, .f32⟩) main_v3) select ]

/-- The weighted sum over the eight corners and the last reshape. -/
abbrev opsD : List (HloOp τ sig (Elt F)) :=
  [ reshape main_v3 main_v4 rfl shapeCasts_S4x4x32x262144_S4x4x32x8x32768,
    unary main_arg0 main_v5 (broadcastInDim S4x4x1x8x32768 ![0, 1, 3, 4] bcast_S4x4x8x32768_S4x4x1x8x32768_0_1_3_4 : (⟨S4x4x8x32768, .f32⟩ : BufTy).Contents (Elt F) → (⟨S4x4x1x8x32768, .f32⟩ : BufTy).Contents (Elt F)),
    unary main_v5 main_v6 (broadcastInDim S4x4x32x8x32768 ![0, 1, 2, 3, 4] bcast_S4x4x1x8x32768_S4x4x32x8x32768_0_1_2_3_4 : (⟨S4x4x1x8x32768, .f32⟩ : BufTy).Contents (Elt F) → (⟨S4x4x32x8x32768, .f32⟩ : BufTy).Contents (Elt F)),
    binary main_v4 main_v6 main_v7 (mulf : (⟨S4x4x32x8x32768, .f32⟩ : BufTy).Contents (Elt F) → (⟨S4x4x32x8x32768, .f32⟩ : BufTy).Contents (Elt F) → (⟨S4x4x32x8x32768, .f32⟩ : BufTy).Contents (Elt F)),
    nullary main_cst (constant S_ .f32 0x00000000#32),
    binary main_v7 main_cst main_v8 ((fun x v => Host.reduceAdd x v reducesTo_S4x4x32x8x32768_S4x4x32x32768_d3 h_S_) : (⟨S4x4x32x8x32768, .f32⟩ : BufTy).Contents (Elt F) → (⟨S_, .f32⟩ : BufTy).Contents (Elt F) → (⟨S4x4x32x32768, .f32⟩ : BufTy).Contents (Elt F)),
    reshape main_v8 main_v9 rfl shapeCasts_S4x4x32x32768_S4x128x32768 ]

/-- @main's 32 operations, in order. -/
abbrev ops : List (HloOp τ sig (Elt F)) :=
  [ reshape main_arg2 main_v0 rfl shapeCasts_S4x128x32x32x32_S4x4x32x32768,
    reshape main_arg1 main_v1 rfl shapeCasts_S4x4x8x32768_S4x4x1x262144,
    unary main_v1 main_v2 (broadcastInDim S4x4x32x262144 ![0, 1, 2, 3] bcast_S4x4x1x262144_S4x4x32x262144_0_1_2_3 : (⟨S4x4x1x262144, .i32⟩ : BufTy).Contents (Elt F) → (⟨S4x4x32x262144, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x4x32x262144, .i32⟩) main_call0_v0) (broadcastInDim S4x4x32x262144 ![] bcast_S_S4x4x32x262144),
    TRef.binary (TRef.of (T := ⟨S4x4x32x262144, .i32⟩) main_v2) (TRef.of (T := ⟨S4x4x32x262144, .i32⟩) main_call0_v0) (TRef.of (T := ⟨S4x4x32x262144, .i1⟩) main_call0_v1) (cmpi .slt),
    TRef.nullary (TRef.of (T := ⟨S_, .i32⟩) main_call0_c_0) (constantI S_ 32 32768#32),
    TRef.unary (TRef.of (T := ⟨S_, .i32⟩) main_call0_c_0) (TRef.of (T := ⟨S4x4x32x262144, .i32⟩) main_call0_v2) (broadcastInDim S4x4x32x262144 ![] bcast_S_S4x4x32x262144),
    TRef.binary (TRef.of (T := ⟨S4x4x32x262144, .i32⟩) main_v2) (TRef.of (T := ⟨S4x4x32x262144, .i32⟩) main_call0_v2) (TRef.of (T := ⟨S4x4x32x262144, .i32⟩) main_call0_v3) addi,
    TRef.ternary (TRef.of (T := ⟨S4x4x32x262144, .i1⟩) main_call0_v1) (TRef.of (T := ⟨S4x4x32x262144, .i32⟩) main_call0_v3) (TRef.of (T := ⟨S4x4x32x262144, .i32⟩) main_v2) (TRef.of (T := ⟨S4x4x32x262144, .i32⟩) main_call0_v4) select,
    TRef.reshape (TRef.of (T := ⟨S4x4x32x262144, .i32⟩) main_call0_v4) (TRef.of (T := ⟨S4x4x32x262144x1, .i32⟩) main_call0_v5) rfl shapeCasts_S4x4x32x262144_S4x4x32x262144x1,
    TRef.nullary (TRef.of (T := ⟨S1, .i32⟩) main_call0_c_1) (constantI S1 32 32767#32),
    TRef.nullary (TRef.of (T := ⟨S_, .i32⟩) main_call0_c_2) (constantI S_ 32 0#32),
    TRef.unary (TRef.of (T := ⟨S_, .i32⟩) main_call0_c_2) (TRef.of (T := ⟨S4x4x32x262144x1, .i32⟩) main_call0_v6) (broadcastInDim S4x4x32x262144x1 ![] bcast_S_S4x4x32x262144x1),
    TRef.binary (TRef.of (T := ⟨S4x4x32x262144x1, .i32⟩) main_call0_v5) (TRef.of (T := ⟨S4x4x32x262144x1, .i32⟩) main_call0_v6) (TRef.of (T := ⟨S4x4x32x262144x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S4x4x32x262144x1, .i32⟩) main_call0_v9) (broadcastInDim S4x4x32x262144x1 ![0, 1, 2, 3, 4] bcast_S1x1x1x1x1_S4x4x32x262144x1_0_1_2_3_4),
    TRef.binary (TRef.of (T := ⟨S4x4x32x262144x1, .i32⟩) main_call0_v5) (TRef.of (T := ⟨S4x4x32x262144x1, .i32⟩) main_call0_v9) (TRef.of (T := ⟨S4x4x32x262144x1, .i1⟩) main_call0_v10) (cmpi .sle),
    TRef.binary (TRef.of (T := ⟨S4x4x32x262144x1, .i1⟩) main_call0_v7) (TRef.of (T := ⟨S4x4x32x262144x1, .i1⟩) main_call0_v10) (TRef.of (T := ⟨S4x4x32x262144x1, .i1⟩) main_call0_v11) andi,
    TRef.nullary (TRef.of (T := ⟨S_, .i1⟩) main_call0_c_3) (constantI S_ 1 1#1),
    TRef.binary (TRef.of (T := ⟨S4x4x32x262144x1, .i1⟩) main_call0_v11) (TRef.of (T := ⟨S_, .i1⟩) main_call0_c_3) (TRef.of (T := ⟨S4x4x32x262144, .i1⟩) main_call0_v12) (fun x v => Host.reduce IntOp.andi x v reducesTo_S4x4x32x262144x1_S4x4x32x262144_d4 h_S_),
    TRef.binary (TRef.of (T := ⟨S4x4x32x32768, .f32⟩) main_v0) (TRef.of (T := ⟨S4x4x32x262144x1, .i32⟩) main_call0_v5) (TRef.of (T := ⟨S4x4x32x262144, .f32⟩) main_call0_v13) (fun x i => Host.gather gather_S4x4x32x32768_S4x4x32x262144x1_S4x4x32x262144_n_3_012_012_3_4_1111 x i),
    TRef.nullary (TRef.of (T := ⟨S_, .f32⟩) main_call0_cst) (constant S_ .f32 0x7FC00000#32),
    TRef.unary (TRef.of (T := ⟨S_, .f32⟩) main_call0_cst) (TRef.of (T := ⟨S4x4x32x262144, .f32⟩) main_call0_v14) (broadcastInDim S4x4x32x262144 ![] bcast_S_S4x4x32x262144),
    TRef.ternary (TRef.of (T := ⟨S4x4x32x262144, .i1⟩) main_call0_v12) (TRef.of (T := ⟨S4x4x32x262144, .f32⟩) main_call0_v13) (TRef.of (T := ⟨S4x4x32x262144, .f32⟩) main_call0_v14) (TRef.of (T := ⟨S4x4x32x262144, .f32⟩) main_v3) select,
    reshape main_v3 main_v4 rfl shapeCasts_S4x4x32x262144_S4x4x32x8x32768,
    unary main_arg0 main_v5 (broadcastInDim S4x4x1x8x32768 ![0, 1, 3, 4] bcast_S4x4x8x32768_S4x4x1x8x32768_0_1_3_4 : (⟨S4x4x8x32768, .f32⟩ : BufTy).Contents (Elt F) → (⟨S4x4x1x8x32768, .f32⟩ : BufTy).Contents (Elt F)),
    unary main_v5 main_v6 (broadcastInDim S4x4x32x8x32768 ![0, 1, 2, 3, 4] bcast_S4x4x1x8x32768_S4x4x32x8x32768_0_1_2_3_4 : (⟨S4x4x1x8x32768, .f32⟩ : BufTy).Contents (Elt F) → (⟨S4x4x32x8x32768, .f32⟩ : BufTy).Contents (Elt F)),
    binary main_v4 main_v6 main_v7 (mulf : (⟨S4x4x32x8x32768, .f32⟩ : BufTy).Contents (Elt F) → (⟨S4x4x32x8x32768, .f32⟩ : BufTy).Contents (Elt F) → (⟨S4x4x32x8x32768, .f32⟩ : BufTy).Contents (Elt F)),
    nullary main_cst (constant S_ .f32 0x00000000#32),
    binary main_v7 main_cst main_v8 ((fun x v => Host.reduceAdd x v reducesTo_S4x4x32x8x32768_S4x4x32x32768_d3 h_S_) : (⟨S4x4x32x8x32768, .f32⟩ : BufTy).Contents (Elt F) → (⟨S_, .f32⟩ : BufTy).Contents (Elt F) → (⟨S4x4x32x32768, .f32⟩ : BufTy).Contents (Elt F)),
    reshape main_v8 main_v9 rfl shapeCasts_S4x4x32x32768_S4x128x32768 ]

theorem ops_split : (ops : List (HloOp τ sig (Elt F))) = opsA ++ opsB ++ opsC ++ opsD := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., binary_bufs_sub .., reshape_bufs_sub ..⟩

/-! ## The four stretches, each over any valuation -/

section Stretches
variable (W : Valuation τ sig (Elt F))

theorem A_v4 : after opsA W (main_call0_v4 : DevRef τ sig) = ReadP.val_main_call0_v4 (F := F) (W (main_arg1 : DevRef τ sig)) := by
  after_results_simp
  try simp only [cast_cast, cast_eq]
  rfl
theorem A_v0 : after opsA W (main_v0 : DevRef τ sig) = ReadP.val_main_v0 (F := F) (W (main_arg2 : DevRef τ sig)) := by
  after_results_simp
  rfl
theorem A_arg0 : after opsA W (main_arg0 : DevRef τ sig) = W (main_arg0 : DevRef τ sig) := by
  after_results_simp

variable (x0 : (⟨S4x4x8x32768, .f32⟩ : BufTy).Contents (Elt F)) (x1 : (⟨S4x4x8x32768, .i32⟩ : BufTy).Contents (Elt F))
  (x2 : (⟨S4x128x32x32x32, .f32⟩ : BufTy).Contents (Elt F))

theorem B_v5 (h4 : W (main_call0_v4 : DevRef τ sig) = ReadP.val_main_call0_v4 (F := F) x1) :
    after opsB W (main_call0_v5 : DevRef τ sig) = ReadP.val_main_call0_v5 (F := F) x1 := by
  after_results_simp
  try simp only [cast_cast, cast_eq]
  rw [h4]
  rfl
theorem B_v12 (h4 : W (main_call0_v4 : DevRef τ sig) = ReadP.val_main_call0_v4 (F := F) x1) :
    after opsB W (main_call0_v12 : DevRef τ sig) = ReadP.val_main_call0_v12 (F := F) x1 := by
  after_results_simp
  try simp only [cast_cast, cast_eq]
  rw [h4]
  rfl
theorem B_v0 : after opsB W (main_v0 : DevRef τ sig) = W (main_v0 : DevRef τ sig) := by
  after_results_simp
theorem B_arg0 : after opsB W (main_arg0 : DevRef τ sig) = W (main_arg0 : DevRef τ sig) := by
  after_results_simp

theorem C_v3 (h0 : W (main_v0 : DevRef τ sig) = ReadP.val_main_v0 (F := F) x2)
    (h5 : W (main_call0_v5 : DevRef τ sig) = ReadP.val_main_call0_v5 (F := F) x1)
    (h12 : W (main_call0_v12 : DevRef τ sig) = ReadP.val_main_call0_v12 (F := F) x1) :
    after opsC W (main_v3 : DevRef τ sig) = ReadP.val_main_v3 (F := F) x1 x2 := by
  after_results_simp
  try simp only [cast_cast, cast_eq]
  rw [h0, h5, h12]
  rfl
theorem C_arg0 : after opsC W (main_arg0 : DevRef τ sig) = W (main_arg0 : DevRef τ sig) := by
  after_results_simp

theorem D_v9 (h3 : W (main_v3 : DevRef τ sig) = ReadP.val_main_v3 (F := F) x1 x2)
    (ha : W (main_arg0 : DevRef τ sig) = x0) :
    after opsD W (main_v9 : DevRef τ sig) = ReadP.val_main_v9 (F := F) x0 x1 x2 := by
  after_results_simp
  rw [h3, ha]
  rfl

end Stretches

/-- The fold of all 32 operations at the result buffer is the composed stage of the three arguments. -/
theorem out_eq (V : Valuation τ sig (Elt F)) :
    after ops V (main_v9 : DevRef τ sig)
      = ReadP.val_main_v9 (F := F) (V (main_arg0 : DevRef τ sig)) (V (main_arg1 : DevRef τ sig)) (V (main_arg2 : DevRef τ sig)) := by
  rw [ops_split, StableHlo.after_append, StableHlo.after_append, StableHlo.after_append]
  have hA4 := A_v4 V
  have hA0 := A_v0 V
  have hAa := A_arg0 V
  generalize after opsA V = W1 at hA4 hA0 hAa ⊢
  have hB5 := B_v5 W1 _ hA4
  have hB12 := B_v12 W1 _ hA4
  have hB0 := (B_v0 W1).trans hA0
  have hBa := (B_arg0 W1).trans hAa
  generalize after opsB W1 = W2 at hB5 hB12 hB0 hBa ⊢
  have hC3 := C_v3 W2 _ _ hB0 hB5 hB12
  have hCa := (C_arg0 W2).trans hBa
  generalize after opsC W2 = W3 at hC3 hCa ⊢
  exact D_v9 W3 _ _ _ hC3 hCa

/-- On every device, from any memory with zero counters: every weakly fair execution of @main terminates with the result buffer at
    the composed stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
        = ReadP.val_main_v9 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (out_eq _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefMid.lean ====
import proofs.«418057_j60662118088797_3_alg».proof.Proof.RefRead
import proofs.«418057_j60662118088797_3_alg».proof.Proof.Spec
import Idealize.ShloMosaic.Lib.ValueIdx
import Idealize.ShloMosaic.Lib.Affine
import Idealize.ShloMosaic.PureOps.Reduce
import Idealize.ShloMosaic.PureOps.ShapeOps
import Idealize.ShloMosaic.PureOps.Ideal.Laws

/-!
# The reference up to its last reshape is the weighted sum of eight table entries

The reference reads, for every corner, a table entry named by an index word, through a clamped and masked gather, multiplies it
by the corner's weight and sums over the eight corners. When every index word is below 32768 the wrap of negative indices does
nothing, the in-bounds mask is 1 everywhere, the clamp does nothing, and the value at (b, h, f, n) is
    Σ_s z[b, h, f, idx[b, h, s, n]] · w[b, h, s, n].
-/

noncomputable section
namespace Cert.ReferenceIdeal.RefValue
open Cert.ReferenceIdeal Cert.ReferenceIdeal.Gen Idealize.ShloMosaic Idealize.ShloMosaic.ValueIdx

namespace Mid

/-! ## Words below 32768: signed and unsigned readings agree -/

section Words
variable {a : BitVec 32}

/-- A word below 32768 reads the same signed and unsigned. -/
theorem toInt_of_lt (ha : a.toNat < 32768) : a.toInt = (a.toNat : Int) :=
  BitVec.toInt_eq_toNat_of_lt (by omega)

/-- It is not negative, so the signed test "below 0" fails … -/
theorem slt_zero_of_lt (ha : a.toNat < 32768) : IntOp.cmpi .slt a 0#32 = 0#1 := by
  refine eq_zero_of_ne_one fun h1 => ?_
  rw [IntOp.cmpi_slt, toInt_of_lt ha, show (0#32 : BitVec 32).toInt = 0 from by decide] at h1
  omega

/-- … the signed test "at least 0" holds … -/
theorem sge_zero_of_lt (ha : a.toNat < 32768) : IntOp.cmpi .sge a 0#32 = 1#1 := by
  rw [IntOp.cmpi_sge, toInt_of_lt ha, show (0#32 : BitVec 32).toInt = 0 from by decide]
  omega

/-- … and so does the signed test "at most 32767". -/
theorem sle_max_of_lt (ha : a.toNat < 32768) : IntOp.cmpi .sle a 32767#32 = 1#1 := by
  rw [IntOp.cmpi_sle, toInt_of_lt ha, show (32767#32 : BitVec 32).toInt = 32767 from by decide]
  omega

/-- Clamping its signed value into [0, 32767] gives its unsigned value. -/
theorem clamp_of_lt (ha : a.toNat < 32768) : min a.toInt.toNat 32767 = a.toNat := by
  rw [toInt_of_lt ha, Int.toNat_natCast]
  omega

end Words

/-! ## A fold by "and" of ones, from one, is one -/

theorem foldl_andi_all_one {ι : Type} (x : ι → BitVec 1) (hx : ∀ i, x i = 1#1) :
    ∀ l : List ι, l.foldl (fun r i => IntOp.andi r (x i)) 1#1 = 1#1
  | [] => rfl
  | c :: l => by
    rw [List.foldl_cons, hx c, show IntOp.andi (1#1 : BitVec 1) 1#1 = 1#1 from by decide]
    exact foldl_andi_all_one x hx l

/-- A reduction by "and", from 1, of an array of ones is 1 at every result index, whatever the axes. -/
theorem reduce_andi_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_all_one x hx _

/-! ## The gather, read at an index

Operand [4, 4, 32, 32768], start indices [4, 4, 32, 262144, 1], result [4, 4, 32, 262144]. The first three operand axes are
batching axes paired with the first three axes of the start indices; the last operand axis is collapsed and is the one the
start index names. Result element (b, h, f, p) is the operand at (b, h, f, c), c the start index at (b, h, f, p, 0) read signed
and clamped into [0, 32767]. -/

theorem gather_read {α : Type} {w : Nat} (d : GatherDims S4x4x32x32768 S4x4x32x262144x1 S4x4x32x262144)
    (hoff : d.offsetDims = []) (hcoll : d.collapsedSliceDims = [3]) (hob : d.operandBatchingDims = [0, 1, 2])
    (hsb : d.startIndicesBatchingDims = [0, 1, 2]) (hsim : d.startIndexMap = [3]) (hivd : d.indexVectorDim = 4)
    (hss : d.sliceSizes = ![1, 1, 1, 1])
    (z : S4x4x32x32768.Idx → α) (idx : IVec S4x4x32x262144x1 w) (b h : Fin 4) (f : Fin 32) (p : Fin 262144) :
    Host.gather d z idx (ix4 b h f p)
      = z (ix4 b h f ⟨min (idx (ix5 b h f p (0 : Fin 1))).toInt.toNat 32767, by omega⟩) := by
  obtain ⟨od, cd, ob, sb, sm, iv, ss, wf⟩ := d
  dsimp only at hoff hcoll hob hsb hsim hivd hss
  subst hoff hcoll hob hsb hsim hivd hss
  have m0 : (0 : Fin S4x4x32x32768.rank) ∈ ([0, 1, 2] : List (Fin S4x4x32x32768.rank)) := by decide
  have m1 : (1 : Fin S4x4x32x32768.rank) ∈ ([0, 1, 2] : List (Fin S4x4x32x32768.rank)) := by decide
  have m2 : (2 : Fin S4x4x32x32768.rank) ∈ ([0, 1, 2] : List (Fin S4x4x32x32768.rank)) := by decide
  have n3 : (3 : Fin S4x4x32x32768.rank) ∉ ([0, 1, 2] : List (Fin S4x4x32x32768.rank)) := by decide
  have c3 : (3 : Fin S4x4x32x32768.rank) ∈ ([3] : List (Fin S4x4x32x32768.rank)) := by decide
  unfold Host.gather
  congr 1
  funext a
  apply Fin.ext
  match a with
  | ⟨0, _⟩ =>
    -- a batching axis: no start component, no offset, the result's own coordinate
    show GatherDims.start _ _ idx (0 : Fin S4x4x32x32768.rank) + GatherDims.batchCoord _ _ (0 : Fin S4x4x32x32768.rank)
      + GatherDims.offCoord _ _ (0 : Fin S4x4x32x32768.rank) = b.val
    rw [GatherDims.start_batching _ _ _ _ m0,
      GatherDims.offCoord_eq_zero _ _ _ (fun hk => ((GatherDims.mem_sKept _ _).1 hk).2 m0), Nat.zero_add, Nat.add_zero]
    rfl
  | ⟨1, _⟩ =>
    show GatherDims.start _ _ idx (1 : Fin S4x4x32x32768.rank) + GatherDims.batchCoord _ _ (1 : Fin S4x4x32x32768.rank)
      + GatherDims.offCoord _ _ (1 : Fin S4x4x32x32768.rank) = h.val
    rw [GatherDims.start_batching _ _ _ _ m1,
      GatherDims.offCoord_eq_zero _ _ _ (fun hk => ((GatherDims.mem_sKept _ _).1 hk).2 m1), Nat.zero_add, Nat.add_zero]
    rfl
  | ⟨2, _⟩ =>
    show GatherDims.start _ _ idx (2 : Fin S4x4x32x32768.rank) + GatherDims.batchCoord _ _ (2 : Fin S4x4x32x32768.rank)
      + GatherDims.offCoord _ _ (2 : Fin S4x4x32x32768.rank) = f.val
    rw [GatherDims.start_batching _ _ _ _ m2,
      GatherDims.offCoord_eq_zero _ _ _ (fun hk => ((GatherDims.mem_sKept _ _).1 hk).2 m2), Nat.zero_add, Nat.add_zero]
    rfl
  | ⟨3, _⟩ =>
    -- the collapsed axis the start index names: the clamped start, no batch coordinate, no offset
    show GatherDims.start _ _ idx (3 : Fin S4x4x32x32768.rank) + GatherDims.batchCoord _ _ (3 : Fin S4x4x32x32768.rank)
      + GatherDims.offCoord _ _ (3 : Fin S4x4x32x32768.rank) = min (idx (ix5 b h f p (0 : Fin 1))).toInt.toNat 32767
    rw [GatherDims.batchCoord_eq_zero _ _ _ n3,
      GatherDims.offCoord_eq_zero _ _ _ (fun hk => ((GatherDims.mem_sKept _ _).1 hk).1 c3), Nat.add_zero]
    unfold GatherDims.start
    rw [dif_pos c3]
    refine congrArg₂ min (congrArg (fun q => (idx q).toInt.toNat) ?_) rfl
    funext c
    apply Fin.ext
    match c with
    | ⟨0, _⟩ => rfl
    | ⟨1, _⟩ => rfl
    | ⟨2, _⟩ => rfl
    | ⟨3, _⟩ => rfl
    | ⟨4, _⟩ => rfl

/-! ## The index chain under the range hypothesis, at every index -/

section Chain
variable (x0 : (⟨S4x4x8x32768, .f32⟩ : BufTy).Contents (Elt Ideal)) (x1 : (⟨S4x4x8x32768, .i32⟩ : BufTy).Contents (Elt Ideal))
  (x2 : (⟨S4x128x32x32x32, .f32⟩ : BufTy).Contents (Elt Ideal))
  (hr : ∀ j : S4x4x8x32768.Idx, (x1 j).toNat < 32768)

include hr

/-- Every element of the broadcast index array is one of the index words, hence below 32768. -/
theorem v2_lt (j : S4x4x32x262144.Idx) : (ReadP.val_main_v2 (F := Ideal) x1 j).toNat < 32768 := by
  rw [ReadP.val_main_v2_apply, ReadP.val_main_v1_apply]
  exact hr _

/-- The wrap of negative indices leaves it as it is. -/
theorem c4_eq (j : S4x4x32x262144.Idx) : ReadP.val_main_call0_v4 (F := Ideal) x1 j = ReadP.val_main_v2 (F := Ideal) x1 j := by
  rw [ReadP.val_main_call0_v4_apply, ReadP.val_main_call0_v1_apply, ReadP.val_main_call0_v0_apply,
    ReadP.val_main_call0_c_apply, slt_zero_of_lt (v2_lt x1 hr j), select_zero]

/-- So the start indices are the broadcast index array, reshaped. -/
theorem c5_eq (i : S4x4x32x262144x1.Idx) :
    ReadP.val_main_call0_v5 (F := Ideal) x1 i = ReadP.val_main_v2 (F := Ideal) x1 (ReadP.idx_main_call0_v5 i) := by
  rw [ReadP.val_main_call0_v5_apply, c4_eq x1 hr]

/-- The in-bounds test is 1 at every start index … -/
theorem c11_one (i : S4x4x32x262144x1.Idx) : ReadP.val_main_call0_v11 (F := Ideal) x1 i = 1#1 := by
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply, c5_eq x1 hr]
  exact IntOp.andi_eq_one.2 ⟨sge_zero_of_lt (v2_lt x1 hr _), sle_max_of_lt (v2_lt x1 hr _)⟩

/-- … so the mask, its "and" along the last axis, is 1 everywhere … -/
theorem c12_one (j : S4x4x32x262144.Idx) : ReadP.val_main_call0_v12 (F := Ideal) x1 j = 1#1 := by
  unfold ReadP.val_main_call0_v12
  exact reduce_andi_all_one _ _ _ _ (c11_one x1 hr) rfl j

/-- … and the masked gather is the gather. -/
theorem v3_eq (j : S4x4x32x262144.Idx) :
    ReadP.val_main_v3 (F := Ideal) x1 x2 j = ReadP.val_main_call0_v13 (F := Ideal) x1 x2 j := by
  rw [ReadP.val_main_v3_apply, c12_one x1 hr, select_one]

end Chain

/-! ## Coordinates

The flattened corner-and-point axis has position k·32768 + n for corner k and point n. -/

/-- Position k·32768 + n of the flattened axis. -/
abbrev flat (k : Fin 8) (n : Fin 32768) : Fin 262144 :=
  ⟨k.val * 32768 + n.val, by have := k.isLt; have := n.isLt; omega⟩

section Coords
variable (b h : Fin 4) (f : Fin 32) (k : Fin 8) (n : Fin 32768)

/-- The summand index of the reduction over the corners. -/
theorem idx_v8_at : ReadP.idx_main_v8 (ix4 b h f n) k = ix5 b h f k n := by
  funext a; apply Fin.ext
  match a with
  | ⟨0, _⟩ => rfl
  | ⟨1, _⟩ => rfl
  | ⟨2, _⟩ => rfl
  | ⟨3, _⟩ => rfl
  | ⟨4, _⟩ => rfl

/-- The two broadcasts of the weights drop the feature coordinate. -/
theorem idx_v6_at : ReadP.idx_main_v5 (ReadP.idx_main_v6 (ix5 b h f k n)) = ix4 b h k n := by
  funext a; apply Fin.ext
  match a with
  | ⟨0, _⟩ => rfl
  | ⟨1, _⟩ => rfl
  | ⟨2, _⟩ => rfl
  | ⟨3, _⟩ => rfl

/-- The reshape [4, 4, 32, 262144] → [4, 4, 32, 8, 32768] splits the last axis. -/
theorem idx_v4_at : ReadP.idx_main_v4 (ix5 b h f k n) = ix4 b h f (flat k n) := by
  have hb := b.isLt; have hh := h.isLt; have hf := f.isLt; have hk := k.isLt; have hn := n.isLt
  funext a; apply Fin.ext
  match a with
  | ⟨0, _⟩ =>
    show ((((b.val * 4 + h.val) * 32 + f.val) * 8 + k.val) * 32768 + n.val) / 33554432 = b.val
    omega
  | ⟨1, _⟩ =>
    show ((((b.val * 4 + h.val) * 32 + f.val) * 8 + k.val) * 32768 + n.val) / 8388608 % 4 = h.val
    omega
  | ⟨2, _⟩ =>
    show ((((b.val * 4 + h.val) * 32 + f.val) * 8 + k.val) * 32768 + n.val) / 262144 % 32 = f.val
    omega
  | ⟨3, _⟩ =>
    show ((((b.val * 4 + h.val) * 32 + f.val) * 8 + k.val) * 32768 + n.val) % 262144 = k.val * 32768 + n.val
    omega

/-- The reshape [4, 4, 32, 262144] → [4, 4, 32, 262144, 1] adds a unit axis. -/
theorem idx_c5_at (p : Fin 262144) : ReadP.idx_main_call0_v5 (ix5 b h f p (0 : Fin 1)) = ix4 b h f p := by
  have hb := b.isLt; have hh := h.isLt; have hf := f.isLt; have hp := p.isLt
  funext a; apply Fin.ext
  match a with
  | ⟨0, _⟩ =>
    show ((((b.val * 4 + h.val) * 32 + f.val) * 262144 + p.val) * 1 + 0) / 33554432 = b.val
    omega
  | ⟨1, _⟩ =>
    show ((((b.val * 4 + h.val) * 32 + f.val) * 262144 + p.val) * 1 + 0) / 8388608 % 4 = h.val
    omega
  | ⟨2, _⟩ =>
    show ((((b.val * 4 + h.val) * 32 + f.val) * 262144 + p.val) * 1 + 0) / 262144 % 32 = f.val
    omega
  | ⟨3, _⟩ =>
    show ((((b.val * 4 + h.val) * 32 + f.val) * 262144 + p.val) * 1 + 0) % 262144 = p.val
    omega

/-- The broadcast over the features then the reshape [4, 4, 8, 32768] → [4, 4, 1, 262144]: position k·32768 + n is corner k, point n. -/
theorem idx_v1_at : ReadP.idx_main_v1 (ReadP.idx_main_v2 (ix4 b h f (flat k n))) = ix4 b h k n := by
  have hb := b.isLt; have hh := h.isLt; have hk := k.isLt; have hn := n.isLt
  funext a; apply Fin.ext
  match a with
  | ⟨0, _⟩ =>
    show (((b.val * 4 + h.val) * 1 + 0) * 262144 + (k.val * 32768 + n.val)) / 1048576 = b.val
    omega
  | ⟨1, _⟩ =>
    show (((b.val * 4 + h.val) * 1 + 0) * 262144 + (k.val * 32768 + n.val)) / 262144 % 4 = h.val
    omega
  | ⟨2, _⟩ =>
    show (((b.val * 4 + h.val) * 1 + 0) * 262144 + (k.val * 32768 + n.val)) / 32768 % 8 = k.val
    omega
  | ⟨3, _⟩ =>
    show (((b.val * 4 + h.val) * 1 + 0) * 262144 + (k.val * 32768 + n.val)) % 32768 = n.val
    omega

variable (x0 : (⟨S4x4x8x32768, .f32⟩ : BufTy).Contents (Elt Ideal)) (x1 : (⟨S4x4x8x32768, .i32⟩ : BufTy).Contents (Elt Ideal))
  (x2 : (⟨S4x128x32x32x32, .f32⟩ : BufTy).Contents (Elt Ideal))

/-- The broadcast index array at (b, h, f, k·32768 + n) is the index word of corner k at point n. -/
theorem v2_at : ReadP.val_main_v2 (F := Ideal) x1 (ix4 b h f (flat k n)) = x1 (ix4 b h k n) := by
  rw [ReadP.val_main_v2_apply, ReadP.val_main_v1_apply, idx_v1_at]

/-- The broadcast weights at (b, h, f, k, n) are the weight of corner k at point n. -/
theorem v6_at : ReadP.val_main_v6 (F := Ideal) x0 (ix5 b h f k n) = x0 (ix4 b h k n) := by
  rw [ReadP.val_main_v6_apply, ReadP.val_main_v5_apply, idx_v6_at]

/-- The gather of the reference at (b, h, f, p): the table at the clamped start index. -/
theorem c13_at (p : Fin 262144) : ReadP.val_main_call0_v13 (F := Ideal) x1 x2 (ix4 b h f p)
    = ReadP.val_main_v0 (F := Ideal) x2 (ix4 b h f
        ⟨min (ReadP.val_main_call0_v5 (F := Ideal) x1 (ix5 b h f p (0 : Fin 1))).toInt.toNat 32767, by omega⟩) :=
  gather_read gather_S4x4x32x32768_S4x4x32x262144x1_S4x4x32x262144_n_3_012_012_3_4_1111 rfl rfl rfl rfl rfl rfl rfl
    (ReadP.val_main_v0 (F := Ideal) x2) (ReadP.val_main_call0_v5 (F := Ideal) x1) b h f p

variable (hr : ∀ j : S4x4x8x32768.Idx, (x1 j).toNat < 32768)
include hr

/-- So is the start index there. -/
theorem c5_at : ReadP.val_main_call0_v5 (F := Ideal) x1 (ix5 b h f (flat k n) (0 : Fin 1)) = x1 (ix4 b h k n) := by
  rw [c5_eq x1 hr, idx_c5_at, v2_at]

/-- The gathered table entry at (b, h, f, k, n): the table at the position the index word of corner k at point n names. -/
theorem v4_at : ReadP.val_main_v4 (F := Ideal) x1 x2 (ix5 b h f k n)
    = ReadP.val_main_v0 (F := Ideal) x2 (ix4 b h f (Cert.Spec.pos (x1 (ix4 b h k n)))) := by
  rw [ReadP.val_main_v4_apply, idx_v4_at, v3_eq x1 x2 hr, c13_at]
  refine congrArg (ReadP.val_main_v0 (F := Ideal) x2) (congrArg (ix4 b h f) (Fin.ext ?_))
  show min (ReadP.val_main_call0_v5 (F := Ideal) x1 (ix5 b h f (flat k n) (0 : Fin 1))).toInt.toNat 32767
    = (Cert.Spec.pos (x1 (ix4 b h k n))).val
  rw [c5_at b h f k n x1 hr, clamp_of_lt (hr _), Cert.Spec.pos_val_of_lt (hr _)]

end Coords

end Mid

/-! ## The statement -/

open Mid

theorem ref_mid (x0 : (⟨S4x4x8x32768, .f32⟩ : BufTy).Contents (Elt Ideal)) (x1 : (⟨S4x4x8x32768, .i32⟩ : BufTy).Contents (Elt Ideal))
    (x2 : (⟨S4x128x32x32x32, .f32⟩ : BufTy).Contents (Elt Ideal))
    (hr : ∀ j : S4x4x8x32768.Idx, (x1 j).toNat < 32768) :
    ReadP.val_main_v8 (F := Ideal) x0 x1 x2 = Cert.Spec.mix x0 x1 (ReadP.val_main_v0 (F := Ideal) x2) := by
  funext i
  obtain ⟨b, h, f, n, rfl⟩ : ∃ (b h : Fin 4) (f : Fin 32) (n : Fin 32768), i = ix4 b h f n :=
    ⟨i 0, i 1, i 2, i 3, eq_ix4 i⟩
  rw [ReadP.val_main_v8_apply, Cert.Spec.mix_apply, ReadP.val_main_cst_apply, Ideal.ofBits_def, Ideal.ofBits_zero_f32, zero_add]
  unfold Cert.Spec.mixAt
  refine Finset.sum_congr rfl fun k _ => ?_
  rw [idx_v8_at, ReadP.val_main_v7_apply, v4_at b h f k n x1 x2 hr, v6_at b h f k n x0]
  -- at the ideal values the product of the float instance is the product of extended reals
  rfl

end Cert.ReferenceIdeal.RefValue
end
-- ==== Proof.PreDecode.lean ====
import proofs.«418057_j60662118088797_3_alg».proof.Pre_finite_inputs
import proofs.«418057_j60662118088797_3_alg».proof.Proof.Gen.Pre_finite_inputs
import Idealize.ShloMosaic.Lib.ReduceAll
import Idealize.ShloMosaic.Lib.StableHlo.Predicate
import Idealize.ShloMosaic.Lib.ValueIdx

/-!
# The integer conjuncts of the precondition, read back

The precondition is the conjunction of four whole-array tests. Two of them concern the index array:
every word is at least 0 and below 32768, both read as signed 32-bit integers. When the precondition
holds, each index word therefore has an unsigned value below 32768.
-/

namespace Cert.Pre_finite_inputs.Decode

open Cert.Pre_finite_inputs Idealize.ShloMosaic

/-- The rank-0 shape has exactly one index. -/
local instance : Subsingleton S_.Idx := ⟨fun a b => funext fun d => d.elim0⟩

/-- A 32-bit word that is, read signed, at least 0 and below 32768 has unsigned value below 32768:
    a word with its top bit set reads negative, so the top bit is clear and both readings agree. -/
theorem toNat_lt_of_signed_range (a : BitVec 32) (h0 : IntOp.cmpi .sge a 0#32 = 1#1)
    (h1 : IntOp.cmpi .slt a 32768#32 = 1#1) : a.toNat < 32768 := by
  rw [IntOp.cmpi_sge, show (0#32 : BitVec 32).toInt = 0 from by decide] at h0
  rw [IntOp.cmpi_slt, show (32768#32 : BitVec 32).toInt = 32768 from by decide] at h1
  rw [BitVec.toInt_eq_toNat_cond] at h0 h1
  have hlt := a.isLt
  split at h0 <;> omega

theorem index_lt {F : FTy → Type} [FloatOps F] [Cert.Pre_finite_inputs.Facts]
    (a0 : FVec F S4x4x8x32768 .f32) (a1 : IVec S4x4x8x32768 32) (a2 : FVec F S4x128x32x32x32 .f32)
    (h : Cert.Pre_finite_inputs.fn (F := F) a0 a1 a2 = (fun _ => 1#1)) :
    ∀ j : S4x4x8x32768.Idx, (a1 j).toNat < 32768 := by
  intro j
  have h0 := congrFun h ValueIdx.ix0
  dsimp only [fn, fn_part1] at h0
  -- the result is a conjunction of four one-bit words; keep the third and the fourth
  obtain ⟨h12, h15⟩ := IntOp.andi_eq_one.1 h0
  obtain ⟨-, h11⟩ := IntOp.andi_eq_one.1 h12
  -- a whole-array "all" that is 1 had a 1 at every index
  have g0 := Host.reduce_andi_all _ _ _ _ _ h11 j
  have g1 := Host.reduce_andi_all _ _ _ _ _ h15 j
  -- the broadcast of a rank-0 constant reads that constant at every index
  have e0 : broadcastInDim S4x4x8x32768 ![] Facts.bcast_S_S4x4x8x32768 (constantI S_ 32 0#32) j = 0#32 :=
    StableHlo.Predicate.bcast_scalar _ Facts.h_S_ _ j
  have e1 : broadcastInDim S4x4x8x32768 ![] Facts.bcast_S_S4x4x8x32768 (constantI S_ 32 32768#32) j = 32768#32 :=
    StableHlo.Predicate.bcast_scalar _ Facts.h_S_ _ j
  -- the two compares, read at the index j
  have c0 : IntOp.cmpi .sge (a1 j) 0#32 = 1#1 := by rw [← e0]; exact g0
  have c1 : IntOp.cmpi .slt (a1 j) 32768#32 = 1#1 := by rw [← e1]; exact g1
  exact toNat_lt_of_signed_range (a1 j) c0 c1

end Cert.Pre_finite_inputs.Decode
-- ==== Proof.lean ====
/-
  The certificate of a weighted table lookup: for every batch b, head h, feature f and point n the result is
      Σ_{s < 8} z[b, h, f, idx[b, h, s, n]] · w[b, h, s, n],
  z the feature array with its channel axis split into (h, f) and its 32³ positions flattened. The reference gathers along the
  flattened axis (jnp's take_along_axis), multiplies by the weights and sums over s. The kernel replaces the gather by two
  selections: the index is cut into hi = idx / 128 and lo = idx % 128; a weighted one-hot column over hi is multiplied into the
  table laid out as rows f·128 + lo by columns hi, and a 0/1 mask over lo picks the row; both sums have one nonzero term, so at
  the ideal values (products with 0 are 0, sums exact, format changes the identity) the kernel's value is the reference's.
  The precondition adds, to the finiteness of the float inputs, that every index word lies in [0, 32768): outside that range the
  reference wraps a negative word or answers with its fill while the kernel clamps, so the two differ there.
  The three frames are the generated ones (the reference's is its run with the result dropped); `preserves` is trivial (the
  ideal pass rewrote nothing); `algebraic` puts the kernel's run (Proof/KernelRun.lean) beside the reference's
  (Proof/RefRun.lean), both ending at the specification `Cert.Spec.mix` under the one reshape they share.
-/
import proofs.«418057_j60662118088797_3_alg».proof.Defs
import proofs.«418057_j60662118088797_3_alg».proof.Proof.Gen.Kernel
import proofs.«418057_j60662118088797_3_alg».proof.Proof.Gen.Kernel.Frame
import proofs.«418057_j60662118088797_3_alg».proof.Proof.Gen.KernelIdeal
import proofs.«418057_j60662118088797_3_alg».proof.Proof.Gen.KernelIdeal.Frame
import proofs.«418057_j60662118088797_3_alg».proof.Proof.Gen.ReferenceIdeal
import proofs.«418057_j60662118088797_3_alg».proof.Proof.Gen.Pre_finite_inputs
import proofs.«418057_j60662118088797_3_alg».proof.Proof.KernelRun
import proofs.«418057_j60662118088797_3_alg».proof.Proof.RefRun
import proofs.«418057_j60662118088797_3_alg».proof.Proof.RefMid
import proofs.«418057_j60662118088797_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Under the precondition every index word is in [0, 32768), so both programs end at the specification of the arguments they
    share, under the same last reshape. -/
theorem algebraic : Cert.algebraic_KernelIdeal_ReferenceIdeal := by
  intro m ρ m' ρ' hpre hagree
  have hr : ∀ (c : Dev Cert.KernelIdeal.nD) (j : Cert.KernelIdeal.S4x4x8x32768.Idx),
      (Cert.KernelIdeal.Blocks.iArg m c j).toNat < 32768 :=
    fun c => Cert.Pre_finite_inputs.Decode.index_lt _ _ _ (hpre c)
  refine ⟨fun c => Cert.KernelIdeal.Run.lastCast (Cert.Spec.mix (Cert.KernelIdeal.Blocks.wArg m c) (Cert.KernelIdeal.Blocks.iArg m c)
    (Cert.KernelIdeal.Blocks.zArg m c)), Cert.KernelIdeal.Run.run m ρ hr, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  unfold Cert.ReferenceIdeal.ReadP.val_main_v9
  rw [Cert.ReferenceIdeal.RefValue.ref_mid _ _ _ (hr c)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
